-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x32 : S_.BroadcastsInDim S11x32 (![] : Fin 0 → Fin S11x32.rank)
  reducesTo_S11x32_S_d0_1 : S11x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S16x1 .f32) (main_arg10 : FVec F S1 .f32) (main_v33 : IVec S_ 1) : IVec S_ 1 :=
  let main_v34 : FVec F S16x1 .f32 := Host.absf main_arg9
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S32x16 .f32) (main_arg8 : FVec F S16 .f32) (main_arg9 : FVec F S16x1 .f32) (main_arg10 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S100000x11 .f32) (main_arg1 : IVec S2x3200000 32) (main_arg2 : IVec S100000 32) (main_arg3 : FVec F S11x32 .f32) (main_arg4 : FVec F S32 .f32) (main_arg5 : FVec F S32x32 .f32) (main_arg6 : FVec F S32 .f32) (main_arg7 : FVec F S32x16 .f32) (main_arg8 : FVec F S16 .f32) (main_arg9 : FVec F S16x1 .f32) (main_arg10 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x32 .f32 := Host.absf main_arg3
  let main_cst_0 : FVec F S_ .f32 := constant S_ .f32 0x7F800000#32
  let main_v5 : FVec F S11x32 .f32 := broadcastInDim S11x32 ![] bcast_S_S11x32 main_cst_0
  let main_v6 : IVec S11x32 1 := cmpf .olt main_v4 main_v5
  let main_c_1 : IVec S_ 1 := constantI S_ 1 1#1
  let main_v7 : IVec S_ 1 := (fun x v => Host.reduce IntOp.andi x v reducesTo_S11x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x11 : Shape := ⟨2, ![5000, 11]⟩
abbrev S5000x32 : Shape := ⟨2, ![5000, 32]⟩
abbrev S3300000x32 : Shape := ⟨2, ![3300000, 32]⟩
abbrev S1x32 : Shape := ⟨2, ![1, 32]⟩
abbrev S100000x1 : Shape := ⟨2, ![100000, 1]⟩
abbrev S5000x1 : Shape := ⟨2, ![5000, 1]⟩
abbrev S5000x16 : Shape := ⟨2, ![5000, 16]⟩
abbrev S1x16 : Shape := ⟨2, ![1, 16]⟩
abbrev S1x1 : Shape := ⟨2, ![1, 1]⟩

abbrev nBuf : Space → Nat
  | .hbm => 80
  | .vmem => 20
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S100000, .i32⟩
  | .hbm, ⟨3, _⟩ => ⟨S11x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x32, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x32, .f32⟩
  | .hbm, ⟨55, _⟩ => ⟨S3300000x32, .f32⟩
  | .hbm, ⟨56, _⟩ => ⟨S3300000x32, .f32⟩
  | .hbm, ⟨57, _⟩ => ⟨S_, .f32⟩
  | .hbm, ⟨58, _⟩ => ⟨S100000x32, .f32⟩
  | .hbm, ⟨59, _⟩ => ⟨S3300000x1, .i32⟩
  | .hbm, ⟨60, _⟩ => ⟨S100000x32, .f32⟩
  | .hbm, ⟨61, _⟩ => ⟨S100000x32, .f32⟩
  | .hbm, ⟨62, _⟩ => ⟨S3300000x1, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x32, .f32⟩
  | .hbm, ⟨72, _⟩ => ⟨S3300000x32, .f32⟩
  | .hbm, ⟨73, _⟩ => ⟨S3300000x32, .f32⟩
  | .hbm, ⟨74, _⟩ => ⟨S_, .f32⟩
  | .hbm, ⟨75, _⟩ => ⟨S100000x32, .f32⟩
  | .hbm, ⟨76, _⟩ => ⟨S3300000x1, .i32⟩
  | .hbm, ⟨77, _⟩ => ⟨S100000x32, .f32⟩
  | .hbm, ⟨78, _⟩ => ⟨S100000x1, .f32⟩
  | .hbm, ⟨79, _⟩ => ⟨S100000, .f32⟩
  | .local _ .vmem, ⟨0, _⟩ => ⟨S5000x11, .f32⟩
  | .local _ .vmem, ⟨1, _⟩ => ⟨S5000x11, .f32⟩
  | .local _ .vmem, ⟨2, _⟩ => ⟨S11x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32, .f32⟩
  | .local _ .vmem, ⟨8, _⟩ => ⟨S32x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32, .f32⟩
  | .local _ .vmem, ⟨14, _⟩ => ⟨S32x16, .f32⟩
  | .local _ .vmem, ⟨15, _⟩ => ⟨S16, .f32⟩
  | .local _ .vmem, ⟨16, _⟩ => ⟨S16x1, .f32⟩
  | .local _ .vmem, ⟨17, _⟩ => ⟨S1, .f32⟩
  | .local _ .vmem, ⟨18, _⟩ => ⟨S5000x1, .f32⟩
  | .local _ .vmem, ⟨19, _⟩ => ⟨S5000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x11_S11x32_S5000x32_1_0_0_1_n_n_wf : DotDims.WF S5000x11 S11x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x32.size a ≤ S11x32.size a
  hwx0_1 : ∀ i : grid0.Coords, EltTy.bits .f32 = 32 ∨ (Rect.block (s := S11x32) S11x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16.size a ≤ S16.size a
  hwx2_3 : ∀ i : grid2.Coords, EltTy.bits .f32 = 32 ∨ (Rect.block (s := S16) S16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x1.size a ≤ S16x1.size a
  hwx2_4 : ∀ i : grid2.Coords, EltTy.bits .f32 = 32 ∨ (Rect.block (s := S16x1) S16x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1.size a ≤ S1.size a
  hwx2_5 : ∀ i : grid2.Coords, EltTy.bits .f32 = 32 ∨ (Rect.block (s := S1) S1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x11_S11x32_S5000x32_1_0_0_1_n_n : DotDims S5000x11 S11x32 S5000x32 where
  lhsContracting := [1]
  rhsContracting := [0]
  lhsNonContracting := [0]
  rhsNonContracting := [1]
  lhsBatch := []
  rhsBatch := []
  wf := dot_S5000x11_S11x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S16x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S100000, .i32⟩
  | .hbm, ⟨3, _⟩ => ⟨S11x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x32, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x32, .f32⟩
  | .hbm, ⟨55, _⟩ => ⟨S3300000x32, .f32⟩
  | .hbm, ⟨56, _⟩ => ⟨S3300000x32, .f32⟩
  | .hbm, ⟨57, _⟩ => ⟨S_, .f32⟩
  | .hbm, ⟨58, _⟩ => ⟨S100000x32, .f32⟩
  | .hbm, ⟨59, _⟩ => ⟨S3300000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x32, .f32⟩
  | .hbm, ⟨78, _⟩ => ⟨S3300000x32, .f32⟩
  | .hbm, ⟨79, _⟩ => ⟨S3300000x32, .f32⟩
  | .hbm, ⟨80, _⟩ => ⟨S_, .f32⟩
  | .hbm, ⟨81, _⟩ => ⟨S100000x32, .f32⟩
  | .hbm, ⟨82, _⟩ => ⟨S3300000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .hbm, ⟨87, _⟩ => ⟨S_, .f32⟩
  | .hbm, ⟨88, _⟩ => ⟨S100000x32, .f32⟩
  | .hbm, ⟨89, _⟩ => ⟨S100000x32, .f32⟩
  | .hbm, ⟨90, _⟩ => ⟨S100000x16, .f32⟩
  | .hbm, ⟨91, _⟩ => ⟨S1x16, .f32⟩
  | .hbm, ⟨92, _⟩ => ⟨S100000x16, .f32⟩
  | .hbm, ⟨93, _⟩ => ⟨S100000x16, .f32⟩
  | .hbm, ⟨94, _⟩ => ⟨S_, .f32⟩
  | .hbm, ⟨95, _⟩ => ⟨S100000x16, .f32⟩
  | .hbm, ⟨96, _⟩ => ⟨S100000x16, .i1⟩
  | .hbm, ⟨97, _⟩ => ⟨S_, .f32⟩
  | .hbm, ⟨98, _⟩ => ⟨S100000x16, .f32⟩
  | .hbm, ⟨99, _⟩ => ⟨S100000x16, .i1⟩
  | .hbm, ⟨100, _⟩ => ⟨S_, .f32⟩
  | .hbm, ⟨101, _⟩ => ⟨S_, .f32⟩
  | .hbm, ⟨102, _⟩ => ⟨S100000x16, .f32⟩
  | .hbm, ⟨103, _⟩ => ⟨S100000x16, .f32⟩
  | .hbm, ⟨104, _⟩ => ⟨S100000x16, .f32⟩
  | .hbm, ⟨105, _⟩ => ⟨S_, .f32⟩
  | .hbm, ⟨106, _⟩ => ⟨S100000x16, .f32⟩
  | .hbm, ⟨107, _⟩ => ⟨S100000x16, .f32⟩
  | .hbm, ⟨108, _⟩ => ⟨S100000x16, .f32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_cst_0 : Ref sig .tc := ⟨.hbm, 97, rfl⟩
abbrev main_call2_v2 : Ref sig .tc := ⟨.hbm, 98, rfl⟩
abbrev main_call2_v3 : Ref sig .tc := ⟨.hbm, 99, rfl⟩
abbrev main_call2_cst_1 : Ref sig .tc := ⟨.hbm, 100, rfl⟩
abbrev main_call2_call0_v0 : Ref sig .tc := ⟨.hbm, 101, rfl⟩
abbrev main_call2_call0_v1 : Ref sig .tc := ⟨.hbm, 102, rfl⟩
abbrev main_call2_v4 : Ref sig .tc := ⟨.hbm, 103, rfl⟩
abbrev main_call2_v5 : Ref sig .tc := ⟨.hbm, 104, rfl⟩
abbrev main_call2_cst_2 : Ref sig .tc := ⟨.hbm, 105, rfl⟩
abbrev main_call2_v6 : Ref sig .tc := ⟨.hbm, 106, rfl⟩
abbrev main_call2_v7 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x11_S11x32_S100000x32_1_0_0_1_n_n_wf : DotDims.WF S100000x11 S11x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x11_S11x32_S100000x32_1_0_0_1_n_n : DotDims S100000x11 S11x32 S100000x32 where
  lhsContracting := [1]
  rhsContracting := [0]
  lhsNonContracting := [0]
  rhsNonContracting := [1]
  lhsBatch := []
  rhsBatch := []
  wf := dot_S100000x11_S11x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.RefSpec.lean ====
/-
  The reference's value, stage by stage, as named functions of the argument arrays.

  The reference is a two-layer graph convolution with a small dense head.  Every message (one per edge, plus one
  self loop per node) has a source node and a target node; a node's degree counts the messages that arrive at it,
  and a message is weighted by  deg(source)^(-1/2) · deg(target)^(-1/2).  One layer multiplies the node features by a
  weight matrix, gathers the product at each message's source, scales it by the message's weight and adds it up at the
  message's target; a bias and a rectifier follow.  The head is  elu(h · Wo1 + bo1) · Wo2 + bo2.

  Each function below is the composition of the reference's own host operations for that stage, so that the
  reference's run ends at `out` of its arguments by unfolding, and the kernel's three dense stages are compared with
  `lin0`, `lin1 ∘ biasRelu` and `head2` one at a time; the gather / scatter stages (`aggregate`) are common to both
  programs and are never opened.
-/
import proofs.«117998_j74826920231167_1_alg».proof.ReferenceIdeal
import Idealize.ShloMosaic.PureOps.Ideal

noncomputable section

namespace Cert.RefSpec

open Idealize.ShloMosaic Cert.ReferenceIdeal Cert.ReferenceIdeal.Facts₀

variable {F : FTy → Type} [FloatOps F] [Cert.ReferenceIdeal.Facts]

/-- The contents of a buffer of shape `S` and element type `e`. -/
abbrev Arr (F : FTy → Type) (S : Shape) (e : EltTy) : Type := (⟨S, e⟩ : BufTy).Contents (Elt F)

/-- Every message's source node: the edge list's first row, then one self loop per node. -/
def srcOf (e : Arr F S2x3200000 .i32) : Arr F S3300000 .i32 :=
  ((fun a b => concatenate S3300000 0 [⟨S3200000, a⟩, ⟨S100000, b⟩] concatenates_S3200000_S100000_S3300000_d0) :
      Arr F S3200000 .i32 → Arr F S100000 .i32 → Arr F S3300000 .i32)
    (shapeCast S3200000 (extractStridedSlice S1x3200000 ![0, 0] e slices_S2x3200000_S1x3200000_0_0) shapeCasts_S1x3200000_S3200000)
    (iotaInDim S100000 32 0)

/-- Every message's target node: the edge list's second row, then one self loop per node. -/
def dstOf (e : Arr F S2x3200000 .i32) : Arr F S3300000 .i32 :=
  ((fun a b => concatenate S3300000 0 [⟨S3200000, a⟩, ⟨S100000, b⟩] concatenates_S3200000_S100000_S3300000_d0) :
      Arr F S3200000 .i32 → Arr F S100000 .i32 → Arr F S3300000 .i32)
    (shapeCast S3200000 (extractStridedSlice S1x3200000 ![1, 0] e slices_S2x3200000_S1x3200000_1_0) shapeCasts_S1x3200000_S3200000)
    (iotaInDim S100000 32 0)

/-- A node index as a gather reads it: a negative index counts from the end (100000 is added to it), and the
    vector becomes a column. -/
def wrapIdx (i : Arr F S3300000 .i32) : Arr F S3300000x1 .i32 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- A node's degree: one for every message whose target it is. -/
def degOf (e : Arr F S2x3200000 .i32) : Arr F S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dstOf e))
    (broadcastInDim S3300000 ![] bcast_S_S3300000 (constant S_ .f32 0x3F800000#32))

/-- A message's weight: deg(source)^(-1/2) · deg(target)^(-1/2). -/
def normOf (e : Arr F S2x3200000 .i32) : Arr F S3300000 .f32 :=
  mulf (Host.gather gather_S100000_S3300000x1_S3300000_n_0_n_n_0_1_1 (Host.rsqrt (degOf e)) (wrapIdx (srcOf e)))
    (Host.gather gather_S100000_S3300000x1_S3300000_n_0_n_n_0_1_1 (Host.rsqrt (degOf e)) (wrapIdx (dstOf e)))

/-- One round of message passing: row `src` of `xw`, scaled by the message's weight, added up at row `dst`. -/
def aggregate (e : Arr F S2x3200000 .i32) (xw : Arr F S100000x32 .f32) : Arr F S100000x32 .f32 :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 (dstOf e))
    (mulf (broadcastInDim S3300000x32 ![0, 1] bcast_S3300000x1_S3300000x32_0_1
        (broadcastInDim S3300000x1 ![0] bcast_S3300000_S3300000x1_0 (normOf e)))
      (Host.gather gather_S100000x32_S3300000x1_S3300000x32_1_0_n_n_0_1_132 xw (wrapIdx (srcOf e))))

/-- The first layer's linear map: x · W1. -/
def lin0 (x : Arr F S100000x11 .f32) (w : Arr F S11x32 .f32) : Arr F S100000x32 .f32 :=
  Host.dotGeneral dot_S100000x11_S11x32_S100000x32_1_0_0_1_n_n none x w

/-- A layer's bias and rectifier: max(a + b, 0), the bias along the rows. -/
def biasRelu (a : Arr F S100000x32 .f32) (b : Arr F S32 .f32) : Arr F S100000x32 .f32 :=
  maximumf (addf a (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The second layer's linear map: h · W2. -/
def lin1 (h : Arr F S100000x32 .f32) (w : Arr F S32x32 .f32) : Arr F S100000x32 .f32 :=
  Host.dotGeneral dot_S100000x32_S32x32_S100000x32_1_0_0_1_n_n none h w

/-- The exponential linear unit as jax spells it: z where z > 0, else 1 · expm1 z, the exponential's argument
    replaced by 0 where it is not used. -/
def elu (z : Arr F S100000x16 .f32) : Arr F S100000x16 .f32 :=
  select (cmpf .ogt z (broadcastInDim S100000x16 ![] bcast_S_S100000x16 (constant S_ .f32 0x00000000#32))) z
    (mulf (broadcastInDim S100000x16 ![] bcast_S_S100000x16 (constant S_ .f32 0x3F800000#32))
      (Host.expm1 (select (cmpf .ogt z (broadcastInDim S100000x16 ![] bcast_S_S100000x16 (constant S_ .f32 0x00000000#32)))
        (broadcastInDim S100000x16 ![] bcast_S_S100000x16 (id (constant S_ .f32 0x00000000#32))) z)))

/-- The head, as a column: elu(max(a + b, 0) · Wo1 + bo1) · Wo2 + bo2. -/
def head2 (a : Arr F S100000x32 .f32) (b : Arr F S32 .f32) (wo1 : Arr F S32x16 .f32) (bo1 : Arr F S16 .f32)
    (wo2 : Arr F S16x1 .f32) (bo2 : Arr F S1 .f32) : Arr F S100000x1 .f32 :=
  addf (Host.dotGeneral dot_S100000x16_S16x1_S100000x1_1_0_0_1_n_n none
      (elu (addf (Host.dotGeneral dot_S100000x32_S32x16_S100000x16_1_0_0_1_n_n none (biasRelu a b) wo1)
        (broadcastInDim S100000x16 ![0, 1] bcast_S1x16_S100000x16_0_1 (broadcastInDim S1x16 ![1] bcast_S16_S1x16_1 bo1)))) wo2)
    (broadcastInDim S100000x1 ![0, 1] bcast_S1x1_S100000x1_0_1 (broadcastInDim S1x1 ![1] bcast_S1_S1x1_1 bo2))

/-- The whole network: two rounds of message passing around the two linear maps, then the head, as a vector. -/
def out (x : Arr F S100000x11 .f32) (e : Arr F S2x3200000 .i32) (w1 : Arr F S11x32 .f32) (b1 : Arr F S32 .f32)
    (w2 : Arr F S32x32 .f32) (b2 : Arr F S32 .f32) (wo1 : Arr F S32x16 .f32) (bo1 : Arr F S16 .f32)
    (wo2 : Arr F S16x1 .f32) (bo2 : Arr F S1 .f32) : Arr F S100000 .f32 :=
  shapeCast S100000 (head2 (aggregate e (lin1 (biasRelu (aggregate e (lin0 x w1)) b1) w2)) b2 wo1 bo1 wo2 bo2)
    shapeCasts_S100000x1_S100000

end Cert.RefSpec

end
-- ==== Proof.KStage0.lean ====
import proofs.«117998_j74826920231167_1_alg».proof.Proof.Gen.KernelIdeal.Frame
import proofs.«117998_j74826920231167_1_alg».proof.Proof.Gen.ReferenceIdeal
import proofs.«117998_j74826920231167_1_alg».proof.Proof.RefSpec
import Idealize.ShloMosaic.Lib.ValueIdx
import Idealize.ShloMosaic.Lib.Pipeline.Value
import Idealize.ShloMosaic.PureOps.Ideal.Laws

/-!
  The first dense stage: the node features times the first layer's weights.

  The features `x` are a 100000 × 11 matrix and the weights `W1` an 11 × 32 matrix.  The kernel walks over 20 tiles
  of 5000 rows: at tile `n` it reads rows `5000 n … 5000 n + 4999` of `x` and the whole of `W1`, forms their product
  into a zero accumulator, and writes the 5000 × 32 result to the same rows of the output.  Over the extended reals
  the change of format before the product is the identity, so entry `(p, q)` of a tile's product is
  `∑ k < 11, x (5000 n + p, k) · W1 (k, q)`; entry `(r, q)` of the reference's product `x · W1` is
  `∑ k < 11, x (r, k) · W1 (k, q)`.  With `r = 5000 n + p` these are the same finite sum, so every tile written is
  the matching tile of `x · W1`; and since every row `r` lies in tile `r / 5000`, the tiles fill the output.
-/

set_option maxRecDepth 16384

noncomputable section

namespace Cert.KernelIdeal.Stage0

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The reference's product at an entry

The product contracts the features' second axis against the weights' first.  At output entry `i` and contraction
position `q`, the left factor sits at row `i 0`, column `q`; the right factor at row `q`, column `i 1`. -/

/-- The left factor's row is the output's row. -/
theorem lhs_ref_0 (i : Cert.ReferenceIdeal.S100000x32.Idx) (q : Cert.ReferenceIdeal.dot_S100000x11_S11x32_S100000x32_1_0_0_1_n_n.contr.Idx) :
    (Cert.ReferenceIdeal.dot_S100000x11_S11x32_S100000x32_1_0_0_1_n_n.lhsIdx i q 0).val = (i 0).val := by
  unfold DotDims.lhsIdx
  rw [dif_neg (show ¬(0 : Fin Cert.ReferenceIdeal.S100000x11.rank) ∈ Cert.ReferenceIdeal.dot_S100000x11_S11x32_S100000x32_1_0_0_1_n_n.lhsBatch by decide),
    dif_pos (show (0 : Fin Cert.ReferenceIdeal.S100000x11.rank) ∈ Cert.ReferenceIdeal.dot_S100000x11_S11x32_S100000x32_1_0_0_1_n_n.lhsNonContracting by decide)]
  rfl
/-- The left factor's column is the contraction position. -/
theorem lhs_ref_1 (i : Cert.ReferenceIdeal.S100000x32.Idx) (q : Cert.ReferenceIdeal.dot_S100000x11_S11x32_S100000x32_1_0_0_1_n_n.contr.Idx) :
    (Cert.ReferenceIdeal.dot_S100000x11_S11x32_S100000x32_1_0_0_1_n_n.lhsIdx i q 1).val = (q ⟨0, by decide⟩).val :=
  Cert.ReferenceIdeal.dot_S100000x11_S11x32_S100000x32_1_0_0_1_n_n.lhsIdx_val_of_single rfl i q
/-- The right factor's row is the contraction position. -/
theorem rhs_ref_0 (i : Cert.ReferenceIdeal.S100000x32.Idx) (q : Cert.ReferenceIdeal.dot_S100000x11_S11x32_S100000x32_1_0_0_1_n_n.contr.Idx) :
    (Cert.ReferenceIdeal.dot_S100000x11_S11x32_S100000x32_1_0_0_1_n_n.rhsIdx i q 0).val = (q ⟨0, by decide⟩).val :=
  Cert.ReferenceIdeal.dot_S100000x11_S11x32_S100000x32_1_0_0_1_n_n.rhsIdx_val_of_single rfl i q
/-- The right factor's column is the output's column. -/
theorem rhs_ref_1 (i : Cert.ReferenceIdeal.S100000x32.Idx) (q : Cert.ReferenceIdeal.dot_S100000x11_S11x32_S100000x32_1_0_0_1_n_n.contr.Idx) :
    (Cert.ReferenceIdeal.dot_S100000x11_S11x32_S100000x32_1_0_0_1_n_n.rhsIdx i q 1).val = (i 1).val := by
  unfold DotDims.rhsIdx
  rw [dif_neg (show ¬(1 : Fin Cert.ReferenceIdeal.S11x32.rank) ∈ Cert.ReferenceIdeal.dot_S100000x11_S11x32_S100000x32_1_0_0_1_n_n.rhsBatch by decide),
    dif_pos (show (1 : Fin Cert.ReferenceIdeal.S11x32.rank) ∈ Cert.ReferenceIdeal.dot_S100000x11_S11x32_S100000x32_1_0_0_1_n_n.rhsNonContracting by decide)]
  rfl

/-- Entry `(r, q)` of `x · W1` is `∑ k < 11, x (r, k) · W1 (k, q)`: the sum over the one contracted axis, re-indexed by
    that axis's coordinate. -/
theorem lin0_apply (x : Vec Ideal Cert.ReferenceIdeal.S100000x11 .f32) (w : Vec Ideal Cert.ReferenceIdeal.S11x32 .f32)
    (r : Fin 100000) (q : Fin 32) :
    Cert.RefSpec.lin0 (F := Ideal) x w (ix2 r q) = ∑ k : Fin 11, x (ix2 r k) * w (ix2 k q) := by
  unfold Cert.RefSpec.lin0
  simp only [Host.dotGeneral]
  rw [Ideal.dotGeneral_apply, ← Equiv.sum_comp (contrEquiv1 Cert.ReferenceIdeal.dot_S100000x11_S11x32_S100000x32_1_0_0_1_n_n 11 rfl rfl).symm]
  refine Finset.sum_congr rfl fun k _ => ?_
  have hk := contrEquiv1_symm_val Cert.ReferenceIdeal.dot_S100000x11_S11x32_S100000x32_1_0_0_1_n_n 11 rfl rfl k
  have el : Cert.ReferenceIdeal.dot_S100000x11_S11x32_S100000x32_1_0_0_1_n_n.lhsIdx (ix2 r q) ((contrEquiv1 Cert.ReferenceIdeal.dot_S100000x11_S11x32_S100000x32_1_0_0_1_n_n 11 rfl rfl).symm k) = ix2 r k :=
    funext fun a => Fin.ext (by
      match a with
      | ⟨0, _⟩ => exact lhs_ref_0 _ _
      | ⟨1, _⟩ => exact (lhs_ref_1 _ _).trans hk)
  have er : Cert.ReferenceIdeal.dot_S100000x11_S11x32_S100000x32_1_0_0_1_n_n.rhsIdx (ix2 r q) ((contrEquiv1 Cert.ReferenceIdeal.dot_S100000x11_S11x32_S100000x32_1_0_0_1_n_n 11 rfl rfl).symm k) = ix2 k q :=
    funext fun a => Fin.ext (by
      match a with
      | ⟨0, _⟩ => exact (rhs_ref_0 _ _).trans hk
      | ⟨1, _⟩ => exact rhs_ref_1 _ _)
  rw [el, er]

/-! ## One tile's product at an entry

The same contraction on a 5000 × 11 tile of the features: left factor at row `i 0`, column `q`; right factor at row
`q`, column `i 1`. -/

/-- The left factor's row is the tile entry's row. -/
theorem lhs_tile_0 (i : S5000x32.Idx) (q : dot_S5000x11_S11x32_S5000x32_1_0_0_1_n_n.contr.Idx) :
    (dot_S5000x11_S11x32_S5000x32_1_0_0_1_n_n.lhsIdx i q 0).val = (i 0).val := by
  unfold DotDims.lhsIdx
  rw [dif_neg (show ¬(0 : Fin S5000x11.rank) ∈ dot_S5000x11_S11x32_S5000x32_1_0_0_1_n_n.lhsBatch by decide),
    dif_pos (show (0 : Fin S5000x11.rank) ∈ dot_S5000x11_S11x32_S5000x32_1_0_0_1_n_n.lhsNonContracting by decide)]
  rfl
/-- The left factor's column is the contraction position. -/
theorem lhs_tile_1 (i : S5000x32.Idx) (q : dot_S5000x11_S11x32_S5000x32_1_0_0_1_n_n.contr.Idx) :
    (dot_S5000x11_S11x32_S5000x32_1_0_0_1_n_n.lhsIdx i q 1).val = (q ⟨0, by decide⟩).val :=
  dot_S5000x11_S11x32_S5000x32_1_0_0_1_n_n.lhsIdx_val_of_single rfl i q
/-- The right factor's row is the contraction position. -/
theorem rhs_tile_0 (i : S5000x32.Idx) (q : dot_S5000x11_S11x32_S5000x32_1_0_0_1_n_n.contr.Idx) :
    (dot_S5000x11_S11x32_S5000x32_1_0_0_1_n_n.rhsIdx i q 0).val = (q ⟨0, by decide⟩).val :=
  dot_S5000x11_S11x32_S5000x32_1_0_0_1_n_n.rhsIdx_val_of_single rfl i q
/-- The right factor's column is the tile entry's column. -/
theorem rhs_tile_1 (i : S5000x32.Idx) (q : dot_S5000x11_S11x32_S5000x32_1_0_0_1_n_n.contr.Idx) :
    (dot_S5000x11_S11x32_S5000x32_1_0_0_1_n_n.rhsIdx i q 1).val = (i 1).val := by
  unfold DotDims.rhsIdx
  rw [dif_neg (show ¬(1 : Fin S11x32.rank) ∈ dot_S5000x11_S11x32_S5000x32_1_0_0_1_n_n.rhsBatch by decide),
    dif_pos (show (1 : Fin S11x32.rank) ∈ dot_S5000x11_S11x32_S5000x32_1_0_0_1_n_n.rhsNonContracting by decide)]
  rfl

/-- Entry `(p, q)` of a tile's product is `∑ k < 11, xb (p, k) · wb (k, q)`: over the extended reals the narrowing of
    both operands changes nothing, and the accumulator the product is added to is zero. -/
theorem tile_apply (x : Vec Ideal S5000x11 .f32) (w : Vec Ideal S11x32 .f32) (p : Fin 5000) (q : Fin 32) :
    k0_pay1 (F := Ideal) x w (ix2 p q) = ∑ k : Fin 11, x (ix2 p k) * w (ix2 k q) := by
  unfold k0_pay1
  simp only [matmul]
  rw [Ideal.matmul_constant_zero_apply, ← Equiv.sum_comp (contrEquiv1 dot_S5000x11_S11x32_S5000x32_1_0_0_1_n_n 11 rfl rfl).symm]
  refine Finset.sum_congr rfl fun k _ => ?_
  have hk := contrEquiv1_symm_val dot_S5000x11_S11x32_S5000x32_1_0_0_1_n_n 11 rfl rfl k
  have el : dot_S5000x11_S11x32_S5000x32_1_0_0_1_n_n.lhsIdx (ix2 p q) ((contrEquiv1 dot_S5000x11_S11x32_S5000x32_1_0_0_1_n_n 11 rfl rfl).symm k) = ix2 p k :=
    funext fun a => Fin.ext (by
      match a with
      | ⟨0, _⟩ => exact lhs_tile_0 _ _
      | ⟨1, _⟩ => exact (lhs_tile_1 _ _).trans hk)
  have er : dot_S5000x11_S11x32_S5000x32_1_0_0_1_n_n.rhsIdx (ix2 p q) ((contrEquiv1 dot_S5000x11_S11x32_S5000x32_1_0_0_1_n_n 11 rfl rfl).symm k) = ix2 k q :=
    funext fun a => Fin.ext (by
      match a with
      | ⟨0, _⟩ => exact (rhs_tile_0 _ _).trans hk
      | ⟨1, _⟩ => exact rhs_tile_1 _ _)
  rw [el, er]
  rfl

/-! ## A tile of the product is the product of a tile -/

/-- If `xb` is rows `5000 n …` of `x` and `wb` is `w`, then the tile product at `j = (p, q)` is `x · w` at
    `i = (5000 n + p, q)`: both are `∑ k < 11, x (5000 n + p, k) · w (k, q)`. -/
theorem tile_eq (x : Vec Ideal Cert.ReferenceIdeal.S100000x11 .f32) (w : Vec Ideal Cert.ReferenceIdeal.S11x32 .f32)
    (xb : Vec Ideal S5000x11 .f32) (wb : Vec Ideal S11x32 .f32) (n : Nat)
    (i : Cert.ReferenceIdeal.S100000x32.Idx) (j : S5000x32.Idx)
    (hi0 : (i 0).val = n * 5000 + (j 0).val) (hi1 : (i 1).val = (j 1).val)
    (hx : ∀ (p : Fin 5000) (k : Fin 11) (r : Fin 100000), r.val = n * 5000 + p.val → xb (ix2 p k) = x (ix2 r k))
    (hw : wb = w) :
    k0_pay1 (F := Ideal) xb wb j = Cert.RefSpec.lin0 (F := Ideal) x w i := by
  obtain ⟨p, q, rfl⟩ : ∃ (p : Fin 5000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hq : q' = q := Fin.ext hi1
  subst hq
  rw [tile_apply, lin0_apply]
  refine Finset.sum_congr rfl fun k _ => ?_
  rw [hx p k r hi0, hw]

/-! ## The blocks at a grid point -/

-- the TensorCore's buffer contents when the region is entered: any
variable (V : (c : Dev nD) → (b : Ref sig .tc) → Buf (Elt Ideal) ((c : Thread nD τ).loc b))

/-- The body reads and writes its buffers from their first entry. -/
theorem zero_offsets : (![0, 0] : Fin 2 → Nat) = fun _ => 0 := funext fun a => by fin_cases a <;> rfl

/-- Where the blocks lie, at each of the 20 grid points: the features' block is in the same row tile as the output's
    and in column block 0; the weights' block is the whole matrix; the output's column block is 0. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Each of the 20 row tiles is some grid point's output block. -/
theorem tile_onto : ∀ q0 : Fin 20, ∃ t : Fin cfg0.N, win0_2.index t (0 : Fin 2) = q0.val :=
  (by decide +kernel : ∀ q0 : Fin 20, ∃ t : Fin grid0.N, win0_2.index t (0 : Fin 2) = q0.val)

/-- The features' block at a point is rows `5000 n …` of `x`, `n` the point's row tile: entry `(p, k)` of the block
    is `x (5000 n + p, k)`. -/
theorem xblock_apply (c : Dev nD) (t : Fin cfg0.N) (p : Fin 5000) (k : Fin 11) (r : Fin 100000)
    (h : r.val = win0_2.index t (0 : Fin 2) * 5000 + p.val) :
    iblk0 V c 0 t (ix2 p k) = V c main_arg0 (ix2 r k) := by
  obtain ⟨e0, e1, e2, e3, e4⟩ := index_maps t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 11 + 1 * k.val = k.val; omega

/-- The weights' block at every point is the whole of `W1`. -/
theorem wblock_eq (c : Dev nD) (t : Fin cfg0.N) : iblk0 V c 1 t = V c main_arg3 := by
  obtain ⟨e0, e1, e2, e3, e4⟩ := index_maps t
  funext y
  show V c main_arg3 (((cfg0.win 1).blk t).view.emb y) = V c main_arg3 y
  refine congrArg (V c main_arg3) (funext fun a => Fin.ext ?_)
  match a with
  | ⟨0, _⟩ => show win0_1.index t (0 : Fin 2) * 11 + 1 * (y 0).val = (y 0).val; omega
  | ⟨1, _⟩ => show win0_1.index t (1 : Fin 2) * 32 + 1 * (y 1).val = (y 1).val; omega

/-- What a grid point writes to the output is that point's tile of `x · W1`: the body's one store covers its whole
    buffer with the product of the two blocks, and the output block's entry `(p, q)` sits at row `5000 n + p`,
    column `q` of the array. -/
theorem flushed_eq (c : Dev nD) (t : Fin cfg0.N) :
    (dat0 (F := Ideal) V c).flushed 2 t
      = ((cfg0.win 2).blk t).view.read (Elt Ideal) (Cert.RefSpec.lin0 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x11) zero_offsets, View.ld_unit_zero (S := S11x32) zero_offsets]
  obtain ⟨e0, e1, e2, e3, e4⟩ := index_maps t
  funext j
  refine tile_eq (V c main_arg0) (V c main_arg3) (iblk0 V c 0 t) (iblk0 V c 1 t) (win0_2.index t (0 : Fin 2))
    (((cfg0.win 2).blk t).view.emb j) j ?_ ?_ (fun p k r h => xblock_apply V c t p k r h) (wblock_eq V c t)
  · show win0_2.index t (0 : Fin 2) * 5000 + 1 * (j 0).val = _
    omega
  · show win0_2.index t (1 : Fin 2) * 32 + 1 * (j 1).val = (j 1).val
    omega

/-! ## The tiles fill the output -/

/-- An entry of the output lies in a point's block iff, on each axis, its coordinate lies in the block's range. -/
theorem mem_tile (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v27).slice (win0_2.rect t)).set ↔ _
  rw [View.set_slice_whole, Rect.mem_set_unit]
  exact Iff.rfl

/-- Row `r` lies in row tile `r / 5000`, which is below 20 because `r` is below 100000; every column lies in the one
    column block.  So every entry is written by some point. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := tile_onto ⟨(i 0).val / 5000, by omega⟩
  have q0 : win0_2.index t (0 : Fin 2) = (i 0).val / 5000 := ht
  obtain ⟨e0, e1, e2, e3, e4⟩ := index_maps t
  refine ⟨t, flush0_2 t, ?_⟩
  rw [mem_tile]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 32 ≤ (i 1).val ∧ (i 1).val < win0_2.index t (1 : Fin 2) * 32 + 32
    omega

/-- After the first region the output array holds x · W1, whatever the buffers held when it was entered. -/
theorem arr (c : Dev nD) :
    (dat0 (F := Ideal) V c).arrAt 2 cfg0.N = Cert.RefSpec.lin0 (F := Ideal) (V c main_arg0) (V c main_arg3) :=
  (dat0 V c).arrAt_eq_of_cover 2 _ (fun t _ => flushed_eq V c t) covered

end Cert.KernelIdeal.Stage0

end
-- ==== Proof.KStage1.lean ====
import proofs.«117998_j74826920231167_1_alg».proof.Proof.Gen.KernelIdeal.Frame
import proofs.«117998_j74826920231167_1_alg».proof.Proof.Gen.ReferenceIdeal
import proofs.«117998_j74826920231167_1_alg».proof.Proof.RefSpec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Stage1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One entry of the stage: row r of max(a + b, 0) against column q of W2

Both programs compute, at row r and column q, the sum over k < 32 of max(a[r,k] + b[k], 0) · W2[k,q]. The kernel
does it on a tile of 5000 rows, the reference on all 100000 rows at once; the rectifier's zero is the same word on
both sides and is never evaluated. -/

/-- The rectifier's zero: the f32 word 0. -/
abbrev zeroWord : Ideal .f32 := Ideal.ofBits .f32 0x00000000#32

/-- The entry both programs compute, for any number of rows: the sum over k of max(a[r,k] + b[k], 0) · W[k,q]. -/
abbrev entry {n : Nat} (a : (⟨2, ![n, 32]⟩ : Shape).Idx → EReal) (b : (⟨1, ![32]⟩ : Shape).Idx → EReal)
    (w : (⟨2, ![32, 32]⟩ : Shape).Idx → EReal) (r : Fin n) (q : Fin 32) : EReal :=
  ∑ k : Fin 32, max (a (ix2 r k) + b (ix1 k)) zeroWord * w (ix2 k q)

/-! ### The tile's product: where its operands are read -/

theorem lhs_tile_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl

theorem lhs_tile_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q

theorem rhs_tile_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q

theorem rhs_tile_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- The tile's product into a zero accumulator, at row p and column q: the sum over k of l[p,k] · r[k,q]. -/
theorem tile_matmul_apply (l : FVec Ideal S5000x32 .bf16) (r : FVec Ideal S32x32 .bf16) (p : Fin 5000) (q : Fin 32) :
    matmul dot_S5000x32_S32x32_S5000x32_1_0_0_1_n_n none l r (constant (F := Ideal) S5000x32 .f32 0x00000000#32) (ix2 p q)
      = ∑ k : Fin 32, l (ix2 p k) * r (ix2 k q) := by
  simp only [matmul]
  rw [Ideal.matmul_constant_zero_apply,
    ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q)
      ((contrEquiv1 dot_S5000x32_S32x32_S5000x32_1_0_0_1_n_n 32 rfl rfl).symm k) = ix2 p k := funext fun a => Fin.ext (by
    match a with
    | ⟨0, _⟩ => exact lhs_tile_0 _ _
    | ⟨1, _⟩ => exact (lhs_tile_1 _ _).trans hk)
  have er : dot_S5000x32_S32x32_S5000x32_1_0_0_1_n_n.rhsIdx (ix2 p q)
      ((contrEquiv1 dot_S5000x32_S32x32_S5000x32_1_0_0_1_n_n 32 rfl rfl).symm k) = ix2 k q := funext fun a => Fin.ext (by
    match a with
    | ⟨0, _⟩ => exact (rhs_tile_0 _ _).trans hk
    | ⟨1, _⟩ => exact rhs_tile_1 _ _)
  rw [el, er]

/-! ### The tile's entry -/

/-- The bias as the tile lays it: the vector cast to one row and broadcast down the tile's rows reads b at the column. -/
theorem tile_bias_apply (b : Vec Ideal S32 .f32) (p : Fin 5000) (k : Fin 32) :
    broadcastTo S5000x32 (shapeCast S1x32 b shapeCasts_S32_S1x32) broadcasts_S1x32_S5000x32 (ix2 p k) = b (ix1 k) := by
  refine (broadcastTo_apply (shapeCast S1x32 b shapeCasts_S32_S1x32) broadcasts_S1x32_S5000x32 (ix2 p k)
    (ix2 (0 : Fin 1) k) ?_).trans ?_
  · intro a
    match a with
    | ⟨0, _⟩ => rfl
    | ⟨1, _⟩ => rfl
  · exact shapeCast_apply b shapeCasts_S32_S1x32 (ix2 (0 : Fin 1) k) (ix1 k) (by
      rw [Shape.rowMajor_val_two, Shape.rowMajor_val_one]; show k.val = 0 * 32 + k.val; omega)

/-- What the body stores, at row p and column q of its tile: the entry of the tile's rows. The rounding to bf16
    before the product is the identity on the ideal values. -/
theorem tile_entry (x : Vec Ideal S5000x32 .f32) (b : Vec Ideal S32 .f32) (w : Vec Ideal S32x32 .f32)
    (p : Fin 5000) (q : Fin 32) :
    k1_pay1 (F := Ideal) x b w (ix2 p q) = entry x b w p q := by
  unfold k1_pay1
  refine (tile_matmul_apply _ _ p q).trans ?_
  refine Finset.sum_congr rfl fun k _ => ?_
  show max (shapeCast S5000x32 x shapeCasts_S5000x32_S5000x32 (ix2 p k)
      + broadcastTo S5000x32 (shapeCast S1x32 b shapeCasts_S32_S1x32) broadcasts_S1x32_S5000x32 (ix2 p k)) zeroWord
      * w (ix2 k q) = max (x (ix2 p k) + b (ix1 k)) zeroWord * w (ix2 k q)
  rw [shapeCast_self, tile_bias_apply]

/-! ### The reference's entry -/

theorem lhs_all_0 (i : Cert.ReferenceIdeal.S100000x32.Idx)
    (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide),
    dif_pos (show (0 : Fin Cert.ReferenceIdeal.S100000x32.rank) ∈ Cert.ReferenceIdeal.dot_S100000x32_S32x32_S100000x32_1_0_0_1_n_n.lhsNonContracting by decide)]
  rfl

theorem lhs_all_1 (i : Cert.ReferenceIdeal.S100000x32.Idx)
    (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q

theorem rhs_all_0 (i : Cert.ReferenceIdeal.S100000x32.Idx)
    (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q

theorem rhs_all_1 (i : Cert.ReferenceIdeal.S100000x32.Idx)
    (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide),
    dif_pos (show (1 : Fin Cert.ReferenceIdeal.S32x32.rank) ∈ Cert.ReferenceIdeal.dot_S100000x32_S32x32_S100000x32_1_0_0_1_n_n.rhsNonContracting by decide)]
  rfl

/-- The reference's bias: the vector broadcast to one row, the row broadcast down all rows, reads b at the column. -/
theorem all_bias_apply (b : Cert.RefSpec.Arr Ideal Cert.ReferenceIdeal.S32 .f32) (r : Fin 100000) (k : Fin 32) :
    broadcastInDim Cert.ReferenceIdeal.S100000x32 ![0, 1] Cert.ReferenceIdeal.Facts₀.bcast_S1x32_S100000x32_0_1
      (broadcastInDim Cert.ReferenceIdeal.S1x32 ![1] Cert.ReferenceIdeal.Facts₀.bcast_S32_S1x32_1 b) (ix2 r k) = b (ix1 k) := by
  refine (broadcastInDim_oneRow_apply Cert.ReferenceIdeal.Facts₀.bcast_S1x32_S100000x32_0_1 _ r k).trans ?_
  refine broadcastInDim_apply ![1] Cert.ReferenceIdeal.Facts₀.bcast_S32_S1x32_1 b (ix2 (0 : Fin 1) k) (ix1 k) ?_
  intro a
  match a with
  | ⟨0, _⟩ => rfl

/-- The reference's stage at row r and column q: the entry of all the rows. -/
theorem all_entry (a : Cert.RefSpec.Arr Ideal Cert.ReferenceIdeal.S100000x32 .f32)
    (b : Cert.RefSpec.Arr Ideal Cert.ReferenceIdeal.S32 .f32) (w : Cert.RefSpec.Arr Ideal Cert.ReferenceIdeal.S32x32 .f32)
    (r : Fin 100000) (q : Fin 32) :
    Cert.RefSpec.lin1 (F := Ideal) (Cert.RefSpec.biasRelu (F := Ideal) a b) w (ix2 r q) = entry a b w r q := by
  unfold Cert.RefSpec.lin1
  simp only [Host.dotGeneral]
  rw [Ideal.dotGeneral_apply,
    ← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 r q)
      ((contrEquiv1 Cert.ReferenceIdeal.dot_S100000x32_S32x32_S100000x32_1_0_0_1_n_n 32 rfl rfl).symm k) = ix2 r k :=
    funext fun a => Fin.ext (by
      match a with
      | ⟨0, _⟩ => exact lhs_all_0 _ _
      | ⟨1, _⟩ => exact (lhs_all_1 _ _).trans hk)
  have er : Cert.ReferenceIdeal.dot_S100000x32_S32x32_S100000x32_1_0_0_1_n_n.rhsIdx (ix2 r q)
      ((contrEquiv1 Cert.ReferenceIdeal.dot_S100000x32_S32x32_S100000x32_1_0_0_1_n_n 32 rfl rfl).symm k) = ix2 k q :=
    funext fun a => Fin.ext (by
      match a with
      | ⟨0, _⟩ => exact (rhs_all_0 _ _).trans hk
      | ⟨1, _⟩ => exact rhs_all_1 _ _)
  rw [el, er]
  unfold Cert.RefSpec.biasRelu
  show max (a (ix2 r k)
      + broadcastInDim Cert.ReferenceIdeal.S100000x32 ![0, 1] Cert.ReferenceIdeal.Facts₀.bcast_S1x32_S100000x32_0_1
          (broadcastInDim Cert.ReferenceIdeal.S1x32 ![1] Cert.ReferenceIdeal.Facts₀.bcast_S32_S1x32_1 b) (ix2 r k)) zeroWord
      * w (ix2 k q) = max (a (ix2 r k) + b (ix1 k)) zeroWord * w (ix2 k q)
  rw [all_bias_apply]

-- the TensorCore's buffer contents when the region is entered: any
variable (V : (c : Dev nD) → (b : Ref sig .tc) → Buf (Elt Ideal) ((c : Thread nD τ).loc b))

/-! ## From the tiles to the array

The grid has 20 points; point t works on rows 5000 t … 5000 t + 4999 of the agg array and writes the same rows of the
output array, and reads the whole bias and the whole weight matrix. So what point t writes back is tile t of the
stage's result, and the 20 tiles cover the 100000 rows. -/

/-- A tile's entry is the stage's entry at the row the tile's row stands for, when the tile's blocks hold the arrays'
    values at those rows. -/
theorem tile_is_rows (x : Vec Ideal S5000x32 .f32) (b : Vec Ideal S32 .f32) (w : Vec Ideal S32x32 .f32)
    (A : Cert.RefSpec.Arr Ideal Cert.ReferenceIdeal.S100000x32 .f32) (j : S5000x32.Idx) (i : S100000x32.Idx)
    (hx : ∀ k : Fin 32, x (ix2 (j 0) k) = A (ix2 (i 0) k)) (hq : i 1 = j 1) :
    k1_pay1 (F := Ideal) x b w j = Cert.RefSpec.lin1 (F := Ideal) (Cert.RefSpec.biasRelu (F := Ideal) A b) w i := by
  obtain ⟨p, q, rfl⟩ : ∃ (p : Fin 5000) (q : Fin 32), j = ix2 p q := ⟨j 0, j 1, eq_ix2 j⟩
  obtain ⟨r, q', rfl⟩ : ∃ (r : Fin 100000) (q' : Fin 32), i = ix2 r q' := ⟨i 0, i 1, eq_ix2 i⟩
  obtain rfl : q' = q := hq
  rw [tile_entry, all_entry]
  exact Finset.sum_congr rfl fun k _ => by rw [hx k]

theorem hz : (![0, 0] : Fin 2 → Nat) = fun _ => 0 := funext fun a => by fin_cases a <;> rfl
theorem hz1 : (![0] : Fin 1 → Nat) = fun _ => 0 := funext fun a => by fin_cases a; rfl

/-- The index maps over the grid: at point t the agg window and the output window are at block (t, 0); the bias and
    the weight windows stay at block 0. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block is the whole bias, at every point. -/
theorem bias_block (c : Dev nD) (t : Fin cfg1.N) : (iblk1 V c 1 t : Vec Ideal S32 .f32) = V c main_arg4 := by
  obtain ⟨-, -, e, -⟩ := idx_facts t
  unfold iblk1
  funext y
  rw [View.read_apply]
  show V c main_arg4 (((cfg1.win 1).blk t).view.emb y) = V c main_arg4 y
  refine congrArg _ (funext fun a => Fin.ext ?_)
  match a with
  | ⟨0, _⟩ => show win1_1.index t (0 : Fin 1) * 32 + 1 * (y 0).val = (y 0).val; rw [e]; omega

/-- The weight window's block is the whole weight matrix, at every point. -/
theorem weight_block (c : Dev nD) (t : Fin cfg1.N) : (iblk1 V c 2 t : Vec Ideal S32x32 .f32) = V c main_arg5 := by
  obtain ⟨-, -, -, e0, e1, -⟩ := idx_facts t
  unfold iblk1
  funext y
  rw [View.read_apply]
  show V c main_arg5 (((cfg1.win 2).blk t).view.emb y) = V c main_arg5 y
  refine congrArg _ (funext fun a => Fin.ext ?_)
  match a with
  | ⟨0, _⟩ => show win1_2.index t (0 : Fin 2) * 32 + 1 * (y 0).val = (y 0).val; rw [e0]; omega
  | ⟨1, _⟩ => show win1_2.index t (1 : Fin 2) * 32 + 1 * (y 1).val = (y 1).val; rw [e1]; omega

/-- The agg window's block at point t holds rows 5000 t … of the agg array. -/
theorem agg_block (c : Dev nD) (t : Fin cfg1.N) (p : Fin 5000) (k : Fin 32) (r : Fin 100000)
    (hr : r.val = t.val * 5000 + p.val) :
    (iblk1 V c 0 t : Vec Ideal S5000x32 .f32) (ix2 p k) = (V c main_v40 : S100000x32.Idx → EReal) (ix2 r k) := by
  obtain ⟨e0, e1, -⟩ := idx_facts t
  unfold iblk1
  rw [View.read_apply]
  show V c main_v40 (((cfg1.win 0).blk t).view.emb (ix2 p k)) = V c main_v40 (ix2 r k)
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 32 + 1 * k.val = k.val; rw [e1]; omega

/-- The stage's result of the arrays the region finds. -/
abbrev stage (c : Dev nD) : Cert.RefSpec.Arr Ideal Cert.ReferenceIdeal.S100000x32 .f32 :=
  Cert.RefSpec.lin1 (F := Ideal) (Cert.RefSpec.biasRelu (F := Ideal) (V c main_v40) (V c main_arg4)) (V c main_arg5)

/-- What point t writes back is tile t of the stage's result. -/
theorem flushed_eq (c : Dev nD) (t : Fin cfg1.N) :
    (dat1 (F := Ideal) V c).flushed 3 t = ((cfg1.win 3).blk t).view.read (Elt Ideal) (stage V c) := by
  show (cfg1.win 3).cut (grid1.coords t) ((dat1 (F := Ideal) V c).after 3 t) = _
  rw [after1_3]
  unfold out1_3
  rw [View.canon_unit_zero hz]
  simp only [View.ld_unit_zero (S := S5000x32) hz, View.ld_unit_zero (S := S32) hz1, View.ld_unit_zero (S := S32x32) hz]
  rw [bias_block, weight_block]
  obtain ⟨-, -, -, -, -, e0, e1⟩ := idx_facts t
  funext j
  rw [View.read_apply]
  show k1_pay1 (F := Ideal) (iblk1 V c 0 t) (V c main_arg4) (V c main_arg5) j = stage V c (((cfg1.win 3).blk t).view.emb j)
  refine tile_is_rows (iblk1 V c 0 t) (V c main_arg4) (V c main_arg5) (V c main_v40) j _ (fun k => ?_) (Fin.ext ?_)
  · refine agg_block V c t (j 0) k _ ?_
    show win1_3.index t (0 : Fin 2) * 5000 + 1 * (j 0).val = t.val * 5000 + (j 0).val
    rw [e0]; omega
  · show win1_3.index t (1 : Fin 2) * 32 + 1 * (j 1).val = (j 1).val
    rw [e1]; omega

/-- An index of the output array is in point t's block iff its row is one of the tile's 5000 and its column one of the 32. -/
theorem mem_blk (t : Fin cfg1.N) (i : S100000x32.Idx) :
    i ∈ ((cfg1.win 3).blk t).view.set
      ↔ ∀ a : Fin 2, win1_3.index t a * S5000x32.size a ≤ (i a).val ∧ (i a).val < win1_3.index t a * S5000x32.size a + S5000x32.size a := by
  show i ∈ ((View.whole main_v41).slice (win1_3.rect t)).set ↔ _
  rw [View.set_slice_whole, Rect.mem_set_unit]
  exact Iff.rfl

/-- Every row is in some tile: row r is in tile r / 5000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, -, e0, e1⟩ := idx_facts t
  have e0' : win1_3.index t (0 : Fin 2) = (i 0).val / 5000 := e0
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e0']; omega
  | ⟨1, _⟩ => show win1_3.index t (1 : Fin 2) * 32 ≤ (i 1).val ∧ (i 1).val < win1_3.index t (1 : Fin 2) * 32 + 32; rw [e1]; omega

/-- After the second region the output array holds max(agg + b1, 0) · W2 of the arrays it found. -/
theorem arr (c : Dev nD) :
    (dat1 (F := Ideal) V c).arrAt 3 cfg1.N
      = Cert.RefSpec.lin1 (F := Ideal) (Cert.RefSpec.biasRelu (F := Ideal) (V c main_v40) (V c main_arg4)) (V c main_arg5) :=
  (dat1 (F := Ideal) V c).arrAt_eq_of_cover 3 (stage V c) (fun t _ => flushed_eq V c t) cover

end Cert.KernelIdeal.Stage1

end
-- ==== Proof.KStage2.lean ====
/-
  The value of the kernel's third dense stage, the head.

  The region's grid has 20 points.  Point t loads rows 5000 t … 5000 t + 4999 of the aggregated features (a tile
  [5000, 32]) and, whole, the bias b2 [32], the weights Wo1 [32, 16], the bias bo1 [16], the weights Wo2 [16, 1] and the
  bias bo2 [1], and stores the tile's head

      elu(max(agg + b2, 0) · Wo1 + bo1) · Wo2 + bo2

  as rows 5000 t … 5000 t + 4999 of the output column [100000, 1].  Every entry of the head depends on ONE row of the
  features only: entry (r, q) is the row function `headAt` below of row r.  So the proof reads the kernel's tile
  arithmetic at an entry (p, q) as `headAt` of the tile's row p, reads the reference's head of the whole array at
  (r, q) as `headAt` of the array's row r, and joins them where row p of tile t is row 5000 t + p of the array.

  At the ideal values the changes of float format are the identity, a matrix product into a zero accumulator is the
  plain sum of products over the contracted axis, and so is the reference's product.  The one law that is not a
  re-reading is in the unit: the kernel computes  z if z > 0 else e^z - 1,  the reference
  z if z > 0 else 1 · (e^y - 1)  with  y = 0 if z > 0 else z;  where the comparison fails y is z, and 1 · t = t on the
  extended reals.
-/
import proofs.«117998_j74826920231167_1_alg».proof.Proof.Gen.KernelIdeal.Frame
import proofs.«117998_j74826920231167_1_alg».proof.Proof.Gen.ReferenceIdeal
import proofs.«117998_j74826920231167_1_alg».proof.Proof.RefSpec
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value

set_option maxRecDepth 16384

noncomputable section

namespace Cert.KernelIdeal.Stage2

open Cert.KernelIdeal Cert.KernelIdeal.Gen
open Idealize.ShloMosaic Idealize.ShloMosaic.TcCoe Idealize.SL.Sem
open Idealize.ShloMosaic.Pipeline (Dat Cfg Window)
open Idealize.ShloMosaic.ValueIdx Idealize.ShloMosaic.StackMember

/-! ## One entry: the exponential linear unit on an extended real -/

/-- The f32 word of 1.0 denotes the real 1. -/
theorem one_f32 : Ideal.ofBits .f32 0x3F800000#32 = 1 := IdealRules.sign_bit.ideal_onePat .f32

/-- The unit: z where z > 0, else e^z - 1. -/
def eluAt (z : EReal) : EReal :=
  Scalar.select (Ideal.cmp .ogt z (Ideal.ofBits .f32 0x00000000#32)) z (Ideal.exp z - 1)

/-- The kernel subtracts the word 1.0 from the exponential. -/
theorem elu_sub_one (z : EReal) :
    Scalar.select (Ideal.cmp .ogt z (Ideal.ofBits .f32 0x00000000#32)) z (Ideal.exp z - Ideal.ofBits .f32 0x3F800000#32)
      = eluAt z := by
  rw [one_f32]; rfl

/-- The reference multiplies e^y - 1 by the word 1.0, where y is z only where the comparison fails and anything (o)
    elsewhere: on the branch that is taken y is z, and 1 · t = t on the extended reals. -/
theorem elu_guarded (o z : EReal) :
    Scalar.select (Ideal.cmp .ogt z (Ideal.ofBits .f32 0x00000000#32)) z
        (Ideal.ofBits .f32 0x3F800000#32
          * (Ideal.exp (Scalar.select (Ideal.cmp .ogt z (Ideal.ofBits .f32 0x00000000#32)) o z) - 1))
      = eluAt z := by
  unfold eluAt
  rw [one_f32, one_mul]
  rcases BitVec.eq_zero_or_eq_one (Ideal.cmp .ogt z (Ideal.ofBits .f32 0x00000000#32)) with h | h
  · simp only [h, select_zero]
  · simp only [h, select_one]

/-! ## One row of the head -/

/-- Entry q of the head's row over the 32 features a:
    (∑ₖ elu((∑ⱼ max(aⱼ + bⱼ, 0) · Wo1ⱼₖ) + bo1ₖ) · Wo2ₖq) + bo2q. -/
def headAt (a : Fin 32 → EReal) (b : S32.Idx → EReal) (wo1 : S32x16.Idx → EReal) (bo1 : S16.Idx → EReal)
    (wo2 : S16x1.Idx → EReal) (bo2 : S1.Idx → EReal) (q : Fin 1) : EReal :=
  (∑ k : Fin 16, eluAt ((∑ j : Fin 32, max (a j + b (ix1 j)) (Ideal.ofBits .f32 0x00000000#32) * wo1 (ix2 j k)) + bo1 (ix1 k))
      * wo2 (ix2 k q)) + bo2 (ix1 q)

/-! ## The operations of a layer, read at an entry -/

/-- A bias laid along every row as the kernel lays it: the vector cast to one row and broadcast down the rows. -/
theorem rowBias_apply {m n : Nat} (v : (⟨1, ![n]⟩ : Shape).Idx → EReal) (h1 : (⟨1, ![n]⟩ : Shape).ShapeCasts ⟨2, ![1, n]⟩)
    (hb : (⟨2, ![1, n]⟩ : Shape).Broadcasts ⟨2, ![m, n]⟩) (p : Fin m) (j : Fin n) :
    broadcastTo ⟨2, ![m, n]⟩ (shapeCast ⟨2, ![1, n]⟩ v h1) hb (ix2 p j) = v (ix1 j) :=
  (broadcastTo_1b_ab_apply _ hb p j).trans (shapeCast_a_1a_apply v h1 0 j)

/-- The same bias as the reference lays it: broadcast along axis 1 to one row, then along both axes down the rows. -/
theorem rowBias_ref_apply {m n : Nat} (v : (⟨1, ![n]⟩ : Shape).Idx → EReal)
    (h1 : (⟨1, ![n]⟩ : Shape).BroadcastsInDim ⟨2, ![1, n]⟩ ![1])
    (hb : (⟨2, ![1, n]⟩ : Shape).BroadcastsInDim ⟨2, ![m, n]⟩ ![0, 1]) (r : Fin m) (j : Fin n) :
    broadcastInDim ⟨2, ![m, n]⟩ ![0, 1] hb (broadcastInDim ⟨2, ![1, n]⟩ ![1] h1 v) (ix2 r j) = v (ix1 j) := by
  refine (broadcastInDim_oneRow_apply hb _ r j).trans ?_
  refine broadcastInDim_apply ![1] h1 v (ix2 (0 : Fin 1) j) (ix1 j) fun a => ?_
  match a with
  | ⟨0, _⟩ =>
    show j.val = if n = 1 then 0 else j.val
    split
    · have := j.isLt; omega
    · rfl

/-- The kernel's first product, into a zero accumulator, at an entry: the sum over the 32 contracted features. -/
theorem mmA_apply (l : FVec Ideal S5000x32 .bf16) (w : FVec Ideal S32x16 .bf16) (p : Fin 5000) (k : Fin 16) :
    matmul dot_S5000x32_S32x16_S5000x16_1_0_0_1_n_n none l w (constant S5000x16 .f32 0x00000000#32) (ix2 p k)
      = ∑ j : Fin 32, l (ix2 p j) * w (ix2 j k) := by
  rw [matmul_zero_eq_dotGeneral]
  exact dotGeneral_plain_apply none l w p k

/-- The kernel's second product at an entry of its one column: the sum over the 16 hidden units. -/
theorem mmB_apply (l : FVec Ideal S5000x16 .bf16) (w : FVec Ideal S16x1 .bf16) (p : Fin 5000) (q : Fin 1) :
    matmul dot_S5000x16_S16x1_S5000x1_1_0_0_1_n_n none l w (constant S5000x1 .f32 0x00000000#32) (ix2 p q)
      = ∑ k : Fin 16, l (ix2 p k) * w (ix2 k q) := by
  rw [matmul_zero_eq_dotGeneral]
  exact dotGeneral_plain_apply none l w p q

/-- The reference's first product at an entry. -/
theorem dotA_apply (l : FVec Ideal Cert.ReferenceIdeal.S100000x32 .f32) (w : FVec Ideal Cert.ReferenceIdeal.S32x16 .f32)
    (r : Fin 100000) (k : Fin 16) :
    Host.dotGeneral Cert.ReferenceIdeal.dot_S100000x32_S32x16_S100000x16_1_0_0_1_n_n none l w (ix2 r k)
      = ∑ j : Fin 32, l (ix2 r j) * w (ix2 j k) :=
  dotGeneral_plain_apply none l w r k

/-- The reference's second product at an entry of its one column. -/
theorem dotB_apply (l : FVec Ideal Cert.ReferenceIdeal.S100000x16 .f32) (w : FVec Ideal Cert.ReferenceIdeal.S16x1 .f32)
    (r : Fin 100000) (q : Fin 1) :
    Host.dotGeneral Cert.ReferenceIdeal.dot_S100000x16_S16x1_S100000x1_1_0_0_1_n_n none l w (ix2 r q)
      = ∑ k : Fin 16, l (ix2 r k) * w (ix2 k q) :=
  dotGeneral_plain_apply none l w r q

/-- The rectified, biased features at an entry, as the kernel computes them on a tile. -/
theorem biasRelu_tile_apply (x0 : FVec Ideal S5000x32 .f32) (x1 : FVec Ideal S32 .f32) (h0 : S5000x32.ShapeCasts S5000x32)
    (h1 : S32.ShapeCasts S1x32) (hb : S1x32.Broadcasts S5000x32) (p : Fin 5000) (j : Fin 32) :
    maximumf (addf (shapeCast S5000x32 x0 h0) (broadcastTo S5000x32 (shapeCast S1x32 x1 h1) hb))
        (broadcast S5000x32 (FloatOps.ofBits .f32 0x00000000#32)) (ix2 p j)
      = max (x0 (ix2 p j) + x1 (ix1 j)) (Ideal.ofBits .f32 0x00000000#32) := by
  rw [maximumf_apply, addf_apply, shapeCast_self, rowBias_apply]; rfl

/-- The same features at an entry, as the reference computes them on the whole array. -/
theorem biasRelu_apply (a : FVec Ideal Cert.ReferenceIdeal.S100000x32 .f32) (b : FVec Ideal Cert.ReferenceIdeal.S32 .f32)
    (r : Fin 100000) (j : Fin 32) :
    Cert.RefSpec.biasRelu (F := Ideal) a b (ix2 r j) = max (a (ix2 r j) + b (ix1 j)) (Ideal.ofBits .f32 0x00000000#32) := by
  unfold Cert.RefSpec.biasRelu
  rw [maximumf_apply, addf_apply, rowBias_ref_apply]; rfl

/-- The kernel's unit at an entry. -/
theorem elu_tile_apply (z : FVec Ideal S5000x16 .f32) (i : S5000x16.Idx) :
    select (cmpf .ogt z (broadcast S5000x16 (FloatOps.ofBits .f32 0x00000000#32))) z
        (subf (exp z) (broadcast S5000x16 (FloatOps.ofBits .f32 0x3F800000#32))) i = eluAt (z i) :=
  elu_sub_one (z i)

/-- The reference's unit at an entry. -/
theorem elu_apply (z : FVec Ideal Cert.ReferenceIdeal.S100000x16 .f32) (i : Cert.ReferenceIdeal.S100000x16.Idx) :
    Cert.RefSpec.elu (F := Ideal) z i = eluAt (z i) :=
  elu_guarded (Ideal.ofBits .f32 0x00000000#32) (z i)

/-! ## Both programs' head at an entry: the same row function -/

/-- The kernel's tile arithmetic at entry (p, q) is the head's row over row p of the tile. -/
theorem pay_apply (x0 : Vec Ideal S5000x32 .f32) (x1 : Vec Ideal S32 .f32) (x2 : Vec Ideal S32x16 .f32) (x3 : Vec Ideal S16 .f32)
    (x4 : Vec Ideal S16x1 .f32) (x5 : Vec Ideal S1 .f32) (p : Fin 5000) (q : Fin 1) :
    k2_pay1 (F := Ideal) x0 x1 x2 x3 x4 x5 (ix2 p q) = headAt (fun j => x0 (ix2 p j)) x1 x2 x3 x4 x5 q := by
  unfold k2_pay1 headAt
  dsimp only
  rw [addf_apply, mmB_apply, rowBias_apply]
  refine congrArg (· + x5 (ix1 q)) (Finset.sum_congr rfl fun k _ => ?_)
  rw [truncf_apply, truncf_apply, elu_tile_apply, addf_apply, mmA_apply, rowBias_apply]
  refine congrArg (fun s => eluAt (s + x3 (ix1 k)) * x4 (ix2 k q)) (Finset.sum_congr rfl fun j _ => ?_)
  rw [truncf_apply, truncf_apply, biasRelu_tile_apply]

/-- The reference's head at entry (r, q) is the head's row over row r of the aggregated features. -/
theorem head2_apply (a : FVec Ideal Cert.ReferenceIdeal.S100000x32 .f32) (b : FVec Ideal Cert.ReferenceIdeal.S32 .f32)
    (wo1 : FVec Ideal Cert.ReferenceIdeal.S32x16 .f32) (bo1 : FVec Ideal Cert.ReferenceIdeal.S16 .f32)
    (wo2 : FVec Ideal Cert.ReferenceIdeal.S16x1 .f32) (bo2 : FVec Ideal Cert.ReferenceIdeal.S1 .f32) (r : Fin 100000) (q : Fin 1) :
    Cert.RefSpec.head2 (F := Ideal) a b wo1 bo1 wo2 bo2 (ix2 r q) = headAt (fun j => a (ix2 r j)) b wo1 bo1 wo2 bo2 q := by
  unfold Cert.RefSpec.head2 headAt
  rw [addf_apply, dotB_apply, rowBias_ref_apply]
  refine congrArg (· + bo2 (ix1 q)) (Finset.sum_congr rfl fun k _ => ?_)
  rw [elu_apply, addf_apply, dotA_apply, rowBias_ref_apply]
  refine congrArg (fun s => eluAt (s + bo1 (ix1 k)) * wo2 (ix2 k q)) (Finset.sum_congr rfl fun j _ => ?_)
  rw [biasRelu_apply]

-- the TensorCore's buffer contents when the region is entered: any
variable (V : (c : Dev nD) → (b : Ref sig .tc) → Buf (Elt Ideal) ((c : Thread nD τ).loc b))

/-! ## From the tiles to the array

The grid has 20 points; point t works on rows 5000 t … 5000 t + 4999 of the aggregated features and writes the same
rows of the output column, and reads the two weight matrices and three biases whole. -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The index maps, decided over the 20 points: the feature window and the output window sit at row block t, column
    block 0; every weight and bias window at block 0. -/
theorem tile_blocks : ∀ t : Fin cfg2.N,
    win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of tile t of the aggregated features is row 5000 t + p of the array. -/
theorem tile_row (c : Dev nD) (t : Fin cfg2.N) (p : Fin 5000) (j : Fin 32) (r : Fin 100000) (hr : r.val = t.val * 5000 + p.val) :
    (iblk2 V c 0 t : Vec Ideal S5000x32 .f32) (ix2 p j) = (V c main_v54 : S100000x32.Idx → EReal) (ix2 r j) := by
  obtain ⟨e0, e1, -⟩ := tile_blocks t
  show V c main_v54 (((cfg2.win 0).blk t).view.emb (ix2 p j)) = V c main_v54 (ix2 r j)
  refine congrArg (V c main_v54) (funext fun a => Fin.ext ?_)
  match a with
  | ⟨0, _⟩ => show win2_0.index t (0 : Fin 2) * 5000 + 1 * p.val = r.val; rw [e0, hr]; omega
  | ⟨1, _⟩ => show win2_0.index t (1 : Fin 2) * 32 + 1 * j.val = j.val; rw [e1]; omega

/-- The first bias's window holds the whole vector at every point. -/
theorem whole_b2 (c : Dev nD) (t : Fin cfg2.N) : (iblk2 V c 1 t : Vec Ideal S32 .f32) = V c main_arg6 := by
  obtain ⟨-, -, e, -⟩ := tile_blocks t
  funext y
  show V c main_arg6 (((cfg2.win 1).blk t).view.emb y) = V c main_arg6 y
  refine congrArg (V c main_arg6) (funext fun a => Fin.ext ?_)
  match a with
  | ⟨0, _⟩ => show win2_1.index t (0 : Fin 1) * 32 + 1 * (y 0).val = (y 0).val; rw [e]; omega

/-- The first weight matrix's window holds the whole matrix at every point. -/
theorem whole_wo1 (c : Dev nD) (t : Fin cfg2.N) : (iblk2 V c 2 t : Vec Ideal S32x16 .f32) = V c main_arg7 := by
  obtain ⟨-, -, -, e0, e1, -⟩ := tile_blocks t
  funext y
  show V c main_arg7 (((cfg2.win 2).blk t).view.emb y) = V c main_arg7 y
  refine congrArg (V c main_arg7) (funext fun a => Fin.ext ?_)
  match a with
  | ⟨0, _⟩ => show win2_2.index t (0 : Fin 2) * 32 + 1 * (y 0).val = (y 0).val; rw [e0]; omega
  | ⟨1, _⟩ => show win2_2.index t (1 : Fin 2) * 16 + 1 * (y 1).val = (y 1).val; rw [e1]; omega

/-- The second bias's window holds the whole vector at every point. -/
theorem whole_bo1 (c : Dev nD) (t : Fin cfg2.N) : (iblk2 V c 3 t : Vec Ideal S16 .f32) = V c main_arg8 := by
  obtain ⟨-, -, -, -, -, e, -⟩ := tile_blocks t
  funext y
  show V c main_arg8 (((cfg2.win 3).blk t).view.emb y) = V c main_arg8 y
  refine congrArg (V c main_arg8) (funext fun a => Fin.ext ?_)
  match a with
  | ⟨0, _⟩ => show win2_3.index t (0 : Fin 1) * 16 + 1 * (y 0).val = (y 0).val; rw [e]; omega

/-- The second weight matrix's window holds the whole column at every point. -/
theorem whole_wo2 (c : Dev nD) (t : Fin cfg2.N) : (iblk2 V c 4 t : Vec Ideal S16x1 .f32) = V c main_arg9 := by
  obtain ⟨-, -, -, -, -, -, e0, e1, -⟩ := tile_blocks t
  funext y
  show V c main_arg9 (((cfg2.win 4).blk t).view.emb y) = V c main_arg9 y
  refine congrArg (V c main_arg9) (funext fun a => Fin.ext ?_)
  match a with
  | ⟨0, _⟩ => show win2_4.index t (0 : Fin 2) * 16 + 1 * (y 0).val = (y 0).val; rw [e0]; omega
  | ⟨1, _⟩ => show win2_4.index t (1 : Fin 2) * 1 + 1 * (y 1).val = (y 1).val; rw [e1]; omega

/-- The last bias's window holds its one entry at every point. -/
theorem whole_bo2 (c : Dev nD) (t : Fin cfg2.N) : (iblk2 V c 5 t : Vec Ideal S1 .f32) = V c main_arg10 := by
  obtain ⟨-, -, -, -, -, -, -, -, e, -⟩ := tile_blocks t
  funext y
  show V c main_arg10 (((cfg2.win 5).blk t).view.emb y) = V c main_arg10 y
  refine congrArg (V c main_arg10) (funext fun a => Fin.ext ?_)
  match a with
  | ⟨0, _⟩ => show win2_5.index t (0 : Fin 1) * 1 + 1 * (y 0).val = (y 0).val; rw [e]; omega

/-- What point t writes back is rows 5000 t … 5000 t + 4999 of the head of the arrays the region found. -/
theorem written_rows (c : Dev nD) (t : Fin cfg2.N) :
    (dat2 (F := Ideal) V c).flushed 6 t = ((cfg2.win 6).blk t).view.read (Elt Ideal)
      (Cert.RefSpec.head2 (F := Ideal) (V c main_v54) (V c main_arg6) (V c main_arg7) (V c main_arg8) (V c main_arg9) (V c main_arg10)) := by
  show (cfg2.win 6).cut (grid2.coords t) ((dat2 V c).after 6 t) = _
  rw [after2_6]
  unfold out2_6
  rw [View.canon_unit_zero zero_offsets2]
  simp only [View.ld_unit_zero (S := S5000x32) zero_offsets2, View.ld_unit_zero (S := S32) zero_offsets1, View.ld_unit_zero (S := S32x16) zero_offsets2,
    View.ld_unit_zero (S := S16) zero_offsets1, View.ld_unit_zero (S := S16x1) zero_offsets2, View.ld_unit_zero (S := S1) zero_offsets1]
  obtain ⟨-, -, -, -, -, -, -, -, -, e0, e1⟩ := tile_blocks t
  have ht : t.val < 20 := lt_of_lt_of_eq t.isLt N_2
  funext y
  obtain ⟨p, q, rfl⟩ : ∃ (p : Fin 5000) (q : Fin 1), y = ix2 p q := ⟨y 0, y 1, eq_ix2 y⟩
  have hp : p.val < 5000 := p.isLt
  refine (pay_apply (iblk2 V c 0 t) (iblk2 V c 1 t) (iblk2 V c 2 t) (iblk2 V c 3 t) (iblk2 V c 4 t) (iblk2 V c 5 t) p q).trans ?_
  have hemb : ((cfg2.win 6).blk t).view.emb (ix2 p q) = ix2 (⟨t.val * 5000 + p.val, by omega⟩ : Fin 100000) q := by
    funext a; apply Fin.ext
    match a with
    | ⟨0, _⟩ => show win2_6.index t (0 : Fin 2) * 5000 + 1 * p.val = t.val * 5000 + p.val; rw [e0]; omega
    | ⟨1, _⟩ => show win2_6.index t (1 : Fin 2) * 1 + 1 * q.val = q.val; rw [e1]; omega
  rw [View.read_apply, hemb, head2_apply, whole_b2, whole_wo1, whole_bo1, whole_wo2, whole_bo2]
  exact congrArg (fun a => headAt a (V c main_arg6) (V c main_arg7) (V c main_arg8) (V c main_arg9) (V c main_arg10) q)
    (funext fun j => tile_row V c t p j _ rfl)

/-- An index of the output column is in point t's block iff its row is among the tile's. -/
theorem mem_tile (t : Fin cfg2.N) (i : S100000x1.Idx) :
    i ∈ ((cfg2.win 6).blk t).view.set
      ↔ ∀ a : Fin 2, win2_6.index t a * S5000x1.size a ≤ (i a).val ∧ (i a).val < win2_6.index t a * S5000x1.size a + S5000x1.size a := by
  show i ∈ ((View.whole main_v55).slice (win2_6.rect t)).set ↔ _
  rw [View.set_slice_whole, Rect.mem_set_unit]
  exact Iff.rfl

/-- Row r of the column is written by point r / 5000. -/
theorem row_covered (i : S100000x1.Idx) : ∃ t : Fin cfg2.N, (cfg2.win 6).flush t = true ∧ i ∈ ((cfg2.win 6).blk t).view.set := by
  have hi0 : (i 0).val < 100000 := (i 0).isLt
  have hi1 : (i 1).val < 1 := (i 1).isLt
  obtain ⟨t, ht⟩ : ∃ t : Fin cfg2.N, t.val = (i 0).val / 5000 :=
    ⟨⟨(i 0).val / 5000, lt_of_lt_of_eq (by omega) N_2.symm⟩, rfl⟩
  obtain ⟨-, -, -, -, -, -, -, -, -, e0, e1⟩ := tile_blocks t
  refine ⟨t, flush2_6 t, ?_⟩
  rw [mem_tile]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 1 ≤ (i 1).val ∧ (i 1).val < win2_6.index t (1 : Fin 2) * 1 + 1
    rw [e1]; omega

/-- After the third region the output column holds the head of the arrays it found. -/
theorem arr (c : Dev nD) :
    (dat2 (F := Ideal) V c).arrAt 6 cfg2.N
      = Cert.RefSpec.head2 (F := Ideal) (V c main_v54) (V c main_arg6) (V c main_arg7) (V c main_arg8) (V c main_arg9) (V c main_arg10) :=
  (dat2 V c).arrAt_eq_of_cover 6 _ (fun t _ => written_rows V c t) row_covered

end Cert.KernelIdeal.Stage2

end
-- ==== Proof.KFold.lean ====
/-
  The kernel program's result read back to its arguments.

  Between the launch and the return the program's buffers go through seven boundaries: a stretch of host operations
  (the message list, the degrees and the message weights), the first dense stage, a stretch (one round of message
  passing), the second dense stage, a stretch (the second round), the head, and a last reshape.  A host stretch changes
  only the buffers its operations write, a dense stage only its output array; so each array a later item reads is
  walked back, boundary by boundary, to the item that wrote it or to the launch memory.  The message passing is the same
  host code in both programs, so it is read here directly as the reference's own stage functions.
-/
import proofs.«117998_j74826920231167_1_alg».proof.Proof.Gen.KernelIdeal.Frame
import proofs.«117998_j74826920231167_1_alg».proof.Proof.Gen.ReferenceIdeal
import proofs.«117998_j74826920231167_1_alg».proof.Proof.RefSpec
import proofs.«117998_j74826920231167_1_alg».proof.Proof.KStage0
import proofs.«117998_j74826920231167_1_alg».proof.Proof.KStage1
import proofs.«117998_j74826920231167_1_alg».proof.Proof.KStage2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

section Stretches

variable {F : FTy → Type} [FloatOps F]

/-! ## What each host stretch writes, and what it therefore keeps -/

/-- The references the host stretch 0 writes. -/
abbrev wr0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem writes0 : (hostOps0 : List (HloOp τ sig (Elt F))).Forall fun op => op.writes ⊆ (wr0.map (Proc.devRef (τ := τ) .tc)).toFinset := by
  simp only [hostOps0, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)
/-- A buffer the stretch does not write keeps its contents. -/
theorem keep0 (W : Valuation τ sig (Elt F)) (r : Ref sig .tc) (h : r ∉ wr0) :
    StableHlo.after hostOps0 W (Proc.devRef .tc r) = W (Proc.devRef .tc r) :=
  StableHlo.after_of_writes_sub hostOps0 W writes0 h

/-- The references the host stretch 1 writes. -/
abbrev wr1 : List (Ref sig .tc) := [main_v28, main_c_4, main_v29, main_v30, main_c_5, main_v31, main_v32, main_v33, main_v34, main_v35, main_v36, main_v37, main_cst_6, main_v38, main_v39, main_v40]
theorem writes1 : (hostOps1 : List (HloOp τ sig (Elt F))).Forall fun op => op.writes ⊆ (wr1.map (Proc.devRef (τ := τ) .tc)).toFinset := by
  simp only [hostOps1, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)
/-- A buffer the stretch does not write keeps its contents. -/
theorem keep1 (W : Valuation τ sig (Elt F)) (r : Ref sig .tc) (h : r ∉ wr1) :
    StableHlo.after hostOps1 W (Proc.devRef .tc r) = W (Proc.devRef .tc r) :=
  StableHlo.after_of_writes_sub hostOps1 W writes1 h

/-- The references the host stretch 2 writes. -/
abbrev wr2 : List (Ref sig .tc) := [main_v42, main_c_7, main_v43, main_v44, main_c_8, main_v45, main_v46, main_v47, main_v48, main_v49, main_v50, main_v51, main_cst_9, main_v52, main_v53, main_v54]
theorem writes2 : (hostOps2 : List (HloOp τ sig (Elt F))).Forall fun op => op.writes ⊆ (wr2.map (Proc.devRef (τ := τ) .tc)).toFinset := by
  simp only [hostOps2, List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, Finset.singleton_subset_iff, List.mem_toFinset]
    exact List.mem_map_of_mem (by decide)
/-- A buffer the stretch does not write keeps its contents. -/
theorem keep2 (W : Valuation τ sig (Elt F)) (r : Ref sig .tc) (h : r ∉ wr2) :
    StableHlo.after hostOps2 W (Proc.devRef .tc r) = W (Proc.devRef .tc r) :=
  StableHlo.after_of_writes_sub hostOps2 W writes2 h

/-! ## What the stretches compute, as the reference's stage functions -/

set_option maxHeartbeats 4000000 in
/-- After the first stretch the source-node vector is the reference's, of the edge list. -/
theorem src0 (W : Valuation τ sig (Elt F)) :
    StableHlo.after hostOps0 W (Proc.devRef .tc main_v3) = Cert.RefSpec.srcOf (F := F) (W (Proc.devRef .tc main_arg1)) := by
  dsimp only [hostOps0]; after_results_simp; rfl
set_option maxHeartbeats 4000000 in
/-- After the first stretch the target-node vector is the reference's, of the edge list. -/
theorem dst0 (W : Valuation τ sig (Elt F)) :
    StableHlo.after hostOps0 W (Proc.devRef .tc main_v6) = Cert.RefSpec.dstOf (F := F) (W (Proc.devRef .tc main_arg1)) := by
  dsimp only [hostOps0]; after_results_simp; rfl
set_option maxHeartbeats 4000000 in
/-- After the first stretch the message weights are the reference's, of the edge list. -/
theorem norm0 (W : Valuation τ sig (Elt F)) :
    StableHlo.after hostOps0 W (Proc.devRef .tc main_v26) = Cert.RefSpec.normOf (F := F) (W (Proc.devRef .tc main_arg1)) := by
  dsimp only [hostOps0]; after_results_simp; rfl

set_option maxHeartbeats 4000000 in
/-- The second stretch is one round of message passing on the first dense stage's output. -/
theorem agg1 (W : Valuation τ sig (Elt F)) (e : Cert.RefSpec.Arr F Cert.ReferenceIdeal.S2x3200000 .i32)
    (h3 : W (Proc.devRef .tc main_v3) = Cert.RefSpec.srcOf (F := F) e) (h6 : W (Proc.devRef .tc main_v6) = Cert.RefSpec.dstOf (F := F) e)
    (h26 : W (Proc.devRef .tc main_v26) = Cert.RefSpec.normOf (F := F) e) :
    StableHlo.after hostOps1 W (Proc.devRef .tc main_v40) = Cert.RefSpec.aggregate (F := F) e (W (Proc.devRef .tc main_v27)) := by
  dsimp only [hostOps1]; after_results_simp; rw [h3, h6, h26]; rfl
set_option maxHeartbeats 4000000 in
/-- The third stretch is one round of message passing on the second dense stage's output. -/
theorem agg2 (W : Valuation τ sig (Elt F)) (e : Cert.RefSpec.Arr F Cert.ReferenceIdeal.S2x3200000 .i32)
    (h3 : W (Proc.devRef .tc main_v3) = Cert.RefSpec.srcOf (F := F) e) (h6 : W (Proc.devRef .tc main_v6) = Cert.RefSpec.dstOf (F := F) e)
    (h26 : W (Proc.devRef .tc main_v26) = Cert.RefSpec.normOf (F := F) e) :
    StableHlo.after hostOps2 W (Proc.devRef .tc main_v54) = Cert.RefSpec.aggregate (F := F) e (W (Proc.devRef .tc main_v41)) := by
  dsimp only [hostOps2]; after_results_simp; rw [h3, h6, h26]; rfl
/-- The last stretch makes the head's column a vector. -/
theorem out3 (W : Valuation τ sig (Elt F)) :
    StableHlo.after hostOps3 W (Proc.devRef .tc main_v56)
      = shapeCast Cert.ReferenceIdeal.S100000 (W (Proc.devRef .tc main_v55) : Cert.RefSpec.Arr F Cert.ReferenceIdeal.S100000x1 .f32)
          Cert.ReferenceIdeal.Facts₀.shapeCasts_S100000x1_S100000 := by
  dsimp only [hostOps3]; after_results; rfl

end Stretches

variable (m : (ℓ : Loc nD τ sig) → Buf (Elt Ideal) ℓ) (ρ : Dev nD → PrngReg)

/-- The result buffer at the last boundary, read back through the host stretches and the three regions to the launch
    memory: the network's value of the arguments. -/
theorem result (c : Dev nD) :
    W7 (F := Ideal) m ρ c (Proc.devRef .tc main_v56) = Cert.RefSpec.out (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  -- the launch memory, and the first stretch
  have a1 : ∀ r : Ref sig .tc, r ∉ (wr0 : List (Ref sig .tc)) → W1 (F := Ideal) m ρ c (Proc.devRef .tc r) = m ((c.tc : Thread nD τ).loc r) :=
    fun r h => keep0 (W0 m ρ c) r h
  have s1 : W1 (F := Ideal) m ρ c (Proc.devRef .tc main_v3) = Cert.RefSpec.srcOf (F := Ideal) (m ((c.tc : Thread nD τ).loc main_arg1)) := src0 (W0 m ρ c)
  have d1 : W1 (F := Ideal) m ρ c (Proc.devRef .tc main_v6) = Cert.RefSpec.dstOf (F := Ideal) (m ((c.tc : Thread nD τ).loc main_arg1)) := dst0 (W0 m ρ c)
  have n1 : W1 (F := Ideal) m ρ c (Proc.devRef .tc main_v26) = Cert.RefSpec.normOf (F := Ideal) (m ((c.tc : Thread nD τ).loc main_arg1)) := norm0 (W0 m ρ c)
  -- the first dense stage
  have a2 : ∀ r : Ref sig .tc, (∀ w, Pipeline.arrRef spec0 w ≠ r) → r ∉ (wr0 : List (Ref sig .tc)) →
      W2 (F := Ideal) m ρ c (Proc.devRef .tc r) = m ((c.tc : Thread nD τ).loc r) :=
    fun r hw h => (W2_of_ne m ρ c r hw).trans (a1 r h)
  have x2 : W2 (F := Ideal) m ρ c (Proc.devRef .tc main_v27) = Cert.RefSpec.lin0 (F := Ideal) (m ((c.tc : Thread nD τ).loc main_arg0)) (m ((c.tc : Thread nD τ).loc main_arg3)) := by
    refine (W2_arr m ρ c 2).trans ((Cert.KernelIdeal.Stage0.arr (V1 m ρ) c).trans ?_)
    rw [show V1 (F := Ideal) m ρ c main_arg0 = (m ((c.tc : Thread nD τ).loc main_arg0)) from a1 main_arg0 (by decide),
      show V1 (F := Ideal) m ρ c main_arg3 = (m ((c.tc : Thread nD τ).loc main_arg3)) from a1 main_arg3 (by decide)]
  have s2 : W2 (F := Ideal) m ρ c (Proc.devRef .tc main_v3) = _ := (W2_of_ne m ρ c main_v3 (by decide)).trans s1
  have d2 : W2 (F := Ideal) m ρ c (Proc.devRef .tc main_v6) = _ := (W2_of_ne m ρ c main_v6 (by decide)).trans d1
  have n2 : W2 (F := Ideal) m ρ c (Proc.devRef .tc main_v26) = _ := (W2_of_ne m ρ c main_v26 (by decide)).trans n1
  -- the first round of message passing
  have a3 : ∀ r : Ref sig .tc, (∀ w, Pipeline.arrRef spec0 w ≠ r) → r ∉ (wr0 : List (Ref sig .tc)) → r ∉ (wr1 : List (Ref sig .tc)) →
      W3 (F := Ideal) m ρ c (Proc.devRef .tc r) = m ((c.tc : Thread nD τ).loc r) :=
    fun r hw h h' => (keep1 (W2 m ρ c) r h').trans (a2 r hw h)
  have x3 : W3 (F := Ideal) m ρ c (Proc.devRef .tc main_v40)
      = Cert.RefSpec.aggregate (F := Ideal) (m ((c.tc : Thread nD τ).loc main_arg1)) (Cert.RefSpec.lin0 (F := Ideal) (m ((c.tc : Thread nD τ).loc main_arg0)) (m ((c.tc : Thread nD τ).loc main_arg3))) :=
    (agg1 (W2 m ρ c) _ s2 d2 n2).trans (by rw [x2])
  have s3 : W3 (F := Ideal) m ρ c (Proc.devRef .tc main_v3) = _ := (keep1 (W2 m ρ c) main_v3 (by decide)).trans s2
  have d3 : W3 (F := Ideal) m ρ c (Proc.devRef .tc main_v6) = _ := (keep1 (W2 m ρ c) main_v6 (by decide)).trans d2
  have n3 : W3 (F := Ideal) m ρ c (Proc.devRef .tc main_v26) = _ := (keep1 (W2 m ρ c) main_v26 (by decide)).trans n2
  -- the second dense stage
  have x4 : W4 (F := Ideal) m ρ c (Proc.devRef .tc main_v41)
      = Cert.RefSpec.lin1 (F := Ideal) (Cert.RefSpec.biasRelu (F := Ideal)
          (Cert.RefSpec.aggregate (F := Ideal) (m ((c.tc : Thread nD τ).loc main_arg1)) (Cert.RefSpec.lin0 (F := Ideal) (m ((c.tc : Thread nD τ).loc main_arg0)) (m ((c.tc : Thread nD τ).loc main_arg3)))) (m ((c.tc : Thread nD τ).loc main_arg4))) (m ((c.tc : Thread nD τ).loc main_arg5)) := by
    refine (W4_arr m ρ c 3).trans ((Cert.KernelIdeal.Stage1.arr (V3 m ρ) c).trans ?_)
    rw [show V3 (F := Ideal) m ρ c main_v40 = _ from x3,
      show V3 (F := Ideal) m ρ c main_arg4 = (m ((c.tc : Thread nD τ).loc main_arg4)) from a3 main_arg4 (by decide) (by decide) (by decide),
      show V3 (F := Ideal) m ρ c main_arg5 = (m ((c.tc : Thread nD τ).loc main_arg5)) from a3 main_arg5 (by decide) (by decide) (by decide)]
  have s4 : W4 (F := Ideal) m ρ c (Proc.devRef .tc main_v3) = _ := (W4_of_ne m ρ c main_v3 (by decide)).trans s3
  have d4 : W4 (F := Ideal) m ρ c (Proc.devRef .tc main_v6) = _ := (W4_of_ne m ρ c main_v6 (by decide)).trans d3
  have n4 : W4 (F := Ideal) m ρ c (Proc.devRef .tc main_v26) = _ := (W4_of_ne m ρ c main_v26 (by decide)).trans n3
  -- the second round of message passing
  have a5 : ∀ r : Ref sig .tc, (∀ w, Pipeline.arrRef spec0 w ≠ r) → (∀ w, Pipeline.arrRef spec1 w ≠ r) →
      r ∉ (wr0 : List (Ref sig .tc)) → r ∉ (wr1 : List (Ref sig .tc)) → r ∉ (wr2 : List (Ref sig .tc)) →
      W5 (F := Ideal) m ρ c (Proc.devRef .tc r) = m ((c.tc : Thread nD τ).loc r) :=
    fun r hw hw' h h' h'' => (keep2 (W4 m ρ c) r h'').trans ((W4_of_ne m ρ c r hw').trans (a3 r hw h h'))
  have x5 : W5 (F := Ideal) m ρ c (Proc.devRef .tc main_v54) = (Cert.RefSpec.aggregate (F := Ideal) (m ((c.tc : Thread nD τ).loc main_arg1)) (Cert.RefSpec.lin1 (F := Ideal) (Cert.RefSpec.biasRelu (F := Ideal) (Cert.RefSpec.aggregate (F := Ideal) (m ((c.tc : Thread nD τ).loc main_arg1)) (Cert.RefSpec.lin0 (F := Ideal) (m ((c.tc : Thread nD τ).loc main_arg0)) (m ((c.tc : Thread nD τ).loc main_arg3)))) (m ((c.tc : Thread nD τ).loc main_arg4))) (m ((c.tc : Thread nD τ).loc main_arg5)))) :=
    (agg2 (W4 m ρ c) _ s4 d4 n4).trans (by rw [x4])
  -- the head, and the last reshape
  have x6 : W6 (F := Ideal) m ρ c (Proc.devRef .tc main_v55) = Cert.RefSpec.head2 (F := Ideal) (Cert.RefSpec.aggregate (F := Ideal) (m ((c.tc : Thread nD τ).loc main_arg1)) (Cert.RefSpec.lin1 (F := Ideal) (Cert.RefSpec.biasRelu (F := Ideal) (Cert.RefSpec.aggregate (F := Ideal) (m ((c.tc : Thread nD τ).loc main_arg1)) (Cert.RefSpec.lin0 (F := Ideal) (m ((c.tc : Thread nD τ).loc main_arg0)) (m ((c.tc : Thread nD τ).loc main_arg3)))) (m ((c.tc : Thread nD τ).loc main_arg4))) (m ((c.tc : Thread nD τ).loc main_arg5)))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
    refine (W6_arr m ρ c 6).trans ((Cert.KernelIdeal.Stage2.arr (V5 m ρ) c).trans ?_)
    rw [show V5 (F := Ideal) m ρ c main_v54 = _ from x5,
      show V5 (F := Ideal) m ρ c main_arg6 = (m ((c.tc : Thread nD τ).loc main_arg6)) from a5 main_arg6 (by decide) (by decide) (by decide) (by decide) (by decide),
      show V5 (F := Ideal) m ρ c main_arg7 = (m ((c.tc : Thread nD τ).loc main_arg7)) from a5 main_arg7 (by decide) (by decide) (by decide) (by decide) (by decide),
      show V5 (F := Ideal) m ρ c main_arg8 = (m ((c.tc : Thread nD τ).loc main_arg8)) from a5 main_arg8 (by decide) (by decide) (by decide) (by decide) (by decide),
      show V5 (F := Ideal) m ρ c main_arg9 = (m ((c.tc : Thread nD τ).loc main_arg9)) from a5 main_arg9 (by decide) (by decide) (by decide) (by decide) (by decide),
      show V5 (F := Ideal) m ρ c main_arg10 = (m ((c.tc : Thread nD τ).loc main_arg10)) from a5 main_arg10 (by decide) (by decide) (by decide) (by decide) (by decide)]
  refine (out3 (W6 m ρ c)).trans ?_
  rw [x6]
  rfl

end Cert.KernelIdeal.Fold

end
-- ==== Proof.RefRun.lean ====
import proofs.«117998_j74826920231167_1_alg».proof.Proof.Gen.ReferenceIdeal
import proofs.«117998_j74826920231167_1_alg».proof.Proof.RefSpec
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference's 103 host operations in program order: the first window's fifty-nine with the first rectifier's
    three listed where it is called, then the second window's, the second rectifier's three and the exponential
    linear unit's fifteen (its two selects included) listed where they are called, each callee's values at the
    buffers of its call's record. -/
abbrev ops : List (HloOp τ sig (Elt F)) :=
  [ nullary main_v0 (iotaInDim S100000 32 0),
    unary main_arg1 main_v1 ((extractStridedSlice S1x3200000 ![0, 0] · Facts₀.slices_S2x3200000_S1x3200000_0_0) : (⟨S2x3200000, .i32⟩ : BufTy).Contents (Elt F) → (⟨S1x3200000, .i32⟩ : BufTy).Contents (Elt F)),
    reshape main_v1 main_v2 rfl Facts₀.shapeCasts_S1x3200000_S3200000,
    binary main_v2 main_v0 main_v3 ((fun a b => concatenate S3300000 0 [⟨S3200000, a⟩, ⟨S100000, b⟩] Facts₀.concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · Facts₀.slices_S2x3200000_S1x3200000_1_0) : (⟨S2x3200000, .i32⟩ : BufTy).Contents (Elt F) → (⟨S1x3200000, .i32⟩ : BufTy).Contents (Elt F)),
    reshape main_v4 main_v5 rfl Facts₀.shapeCasts_S1x3200000_S3200000,
    binary main_v5 main_v0 main_v6 ((fun a b => concatenate S3300000 0 [⟨S3200000, a⟩, ⟨S100000, b⟩] Facts₀.concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] Facts₀.bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] Facts₀.bcast_S_S100000 : (⟨S_, .f32⟩ : BufTy).Contents (Elt F) → (⟨S100000, .f32⟩ : BufTy).Contents (Elt F)),
    unary main_v6 main_v9 (broadcastInDim S3300000x1 ![0] Facts₀.bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3300000 ![] Facts₀.bcast_S_S3300000 : (⟨S_, .i32⟩ : BufTy).Contents (Elt F) → (⟨S3300000, .i32⟩ : BufTy).Contents (Elt F)),
    binary main_v3 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_1 (constantI S_ 32 100000#32),
    unary main_c_1 main_v14 (broadcastInDim S3300000 ![] Facts₀.bcast_S_S3300000 : (⟨S_, .i32⟩ : BufTy).Contents (Elt F) → (⟨S3300000, .i32⟩ : BufTy).Contents (Elt F)),
    binary main_v3 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] Facts₀.bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_2 (constantI S_ 32 0#32),
    unary main_c_2 main_v19 (broadcastInDim S3300000 ![] Facts₀.bcast_S_S3300000 : (⟨S_, .i32⟩ : BufTy).Contents (Elt F) → (⟨S3300000, .i32⟩ : BufTy).Contents (Elt F)),
    binary main_v6 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v21 (broadcastInDim S3300000 ![] Facts₀.bcast_S_S3300000 : (⟨S_, .i32⟩ : BufTy).Contents (Elt F) → (⟨S3300000, .i32⟩ : BufTy).Contents (Elt F)),
    binary main_v6 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] Facts₀.bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)),
    binary main_arg0 main_arg3 main_v27 ((fun l r => Host.dotGeneral dot_S100000x11_S11x32_S100000x32_1_0_0_1_n_n none l r) : (⟨S100000x11, .f32⟩ : BufTy).Contents (Elt F) → (⟨S11x32, .f32⟩ : BufTy).Contents (Elt F) → (⟨S100000x32, .f32⟩ : BufTy).Contents (Elt F)),
    unary main_v26 main_v28 (broadcastInDim S3300000x1 ![0] Facts₀.bcast_S3300000_S3300000x1_0 : (⟨S3300000, .f32⟩ : BufTy).Contents (Elt F) → (⟨S3300000x1, .f32⟩ : BufTy).Contents (Elt F)),
    nullary main_c_4 (constantI S_ 32 0#32),
    unary main_c_4 main_v29 (broadcastInDim S3300000 ![] Facts₀.bcast_S_S3300000 : (⟨S_, .i32⟩ : BufTy).Contents (Elt F) → (⟨S3300000, .i32⟩ : BufTy).Contents (Elt F)),
    binary main_v3 main_v29 main_v30 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v31 (broadcastInDim S3300000 ![] Facts₀.bcast_S_S3300000 : (⟨S_, .i32⟩ : BufTy).Contents (Elt F) → (⟨S3300000, .i32⟩ : BufTy).Contents (Elt F)),
    binary main_v3 main_v31 main_v32 (addi : (⟨S3300000, .i32⟩ : BufTy).Contents (Elt F) → (⟨S3300000, .i32⟩ : BufTy).Contents (Elt F) → (⟨S3300000, .i32⟩ : BufTy).Contents (Elt F)),
    ternary main_v30 main_v32 main_v3 main_v33 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v33 main_v34 (broadcastInDim S3300000x1 ![0] Facts₀.bcast_S3300000_S3300000x1_0 : (⟨S3300000, .i32⟩ : BufTy).Contents (Elt F) → (⟨S3300000x1, .i32⟩ : BufTy).Contents (Elt F)),
    binary main_v27 main_v34 main_v35 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v28 main_v36 (broadcastInDim S3300000x32 ![0, 1] Facts₀.bcast_S3300000x1_S3300000x32_0_1 : (⟨S3300000x1, .f32⟩ : BufTy).Contents (Elt F) → (⟨S3300000x32, .f32⟩ : BufTy).Contents (Elt F)),
    binary main_v36 main_v35 main_v37 (mulf : (⟨S3300000x32, .f32⟩ : BufTy).Contents (Elt F) → (⟨S3300000x32, .f32⟩ : BufTy).Contents (Elt F) → (⟨S3300000x32, .f32⟩ : BufTy).Contents (Elt F)),
    nullary main_cst_6 (constant S_ .f32 0x00000000#32),
    unary main_cst_6 main_v38 (broadcastInDim S100000x32 ![] Facts₀.bcast_S_S100000x32 : (⟨S_, .f32⟩ : BufTy).Contents (Elt F) → (⟨S100000x32, .f32⟩ : BufTy).Contents (Elt F)),
    unary main_v6 main_v39 (broadcastInDim S3300000x1 ![0] Facts₀.bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg4 main_v41 (broadcastInDim S1x32 ![1] Facts₀.bcast_S32_S1x32_1 : (⟨S32, .f32⟩ : BufTy).Contents (Elt F) → (⟨S1x32, .f32⟩ : BufTy).Contents (Elt F)),
    unary main_v41 main_v42 (broadcastInDim S100000x32 ![0, 1] Facts₀.bcast_S1x32_S100000x32_0_1 : (⟨S1x32, .f32⟩ : BufTy).Contents (Elt F) → (⟨S100000x32, .f32⟩ : BufTy).Contents (Elt F)),
    binary main_v40 main_v42 main_v43 (addf : (⟨S100000x32, .f32⟩ : BufTy).Contents (Elt F) → (⟨S100000x32, .f32⟩ : BufTy).Contents (Elt F) → (⟨S100000x32, .f32⟩ : BufTy).Contents (Elt F)),
    TRef.nullary main_call0.cst (constant S_ .f32 0x00000000#32),
    TRef.unary main_call0.cst main_call0.v0 (broadcastInDim S100000x32 ![] Facts₀.bcast_S_S100000x32),
    TRef.binary (.of main_v43 : TRef sig ⟨S100000x32, .f32⟩) main_call0.v0 main_call0.v1 maximumf,
    binary main_v44 main_arg5 main_v45 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v26 main_v46 (broadcastInDim S3300000x1 ![0] Facts₀.bcast_S3300000_S3300000x1_0 : (⟨S3300000, .f32⟩ : BufTy).Contents (Elt F) → (⟨S3300000x1, .f32⟩ : BufTy).Contents (Elt F)),
    nullary main_c_7 (constantI S_ 32 0#32),
    unary main_c_7 main_v47 (broadcastInDim S3300000 ![] Facts₀.bcast_S_S3300000 : (⟨S_, .i32⟩ : BufTy).Contents (Elt F) → (⟨S3300000, .i32⟩ : BufTy).Contents (Elt F)),
    binary main_v3 main_v47 main_v48 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v49 (broadcastInDim S3300000 ![] Facts₀.bcast_S_S3300000 : (⟨S_, .i32⟩ : BufTy).Contents (Elt F) → (⟨S3300000, .i32⟩ : BufTy).Contents (Elt F)),
    binary main_v3 main_v49 main_v50 (addi : (⟨S3300000, .i32⟩ : BufTy).Contents (Elt F) → (⟨S3300000, .i32⟩ : BufTy).Contents (Elt F) → (⟨S3300000, .i32⟩ : BufTy).Contents (Elt F)),
    ternary main_v48 main_v50 main_v3 main_v51 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v51 main_v52 (broadcastInDim S3300000x1 ![0] Facts₀.bcast_S3300000_S3300000x1_0 : (⟨S3300000, .i32⟩ : BufTy).Contents (Elt F) → (⟨S3300000x1, .i32⟩ : BufTy).Contents (Elt F)),
    binary main_v45 main_v52 main_v53 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v46 main_v54 (broadcastInDim S3300000x32 ![0, 1] Facts₀.bcast_S3300000x1_S3300000x32_0_1 : (⟨S3300000x1, .f32⟩ : BufTy).Contents (Elt F) → (⟨S3300000x32, .f32⟩ : BufTy).Contents (Elt F)),
    binary main_v54 main_v53 main_v55 (mulf : (⟨S3300000x32, .f32⟩ : BufTy).Contents (Elt F) → (⟨S3300000x32, .f32⟩ : BufTy).Contents (Elt F) → (⟨S3300000x32, .f32⟩ : BufTy).Contents (Elt F)),
    nullary main_cst_9 (constant S_ .f32 0x00000000#32),
    unary main_cst_9 main_v56 (broadcastInDim S100000x32 ![] Facts₀.bcast_S_S100000x32 : (⟨S_, .f32⟩ : BufTy).Contents (Elt F) → (⟨S100000x32, .f32⟩ : BufTy).Contents (Elt F)),
    unary main_v6 main_v57 (broadcastInDim S3300000x1 ![0] Facts₀.bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg6 main_v59 (broadcastInDim S1x32 ![1] Facts₀.bcast_S32_S1x32_1 : (⟨S32, .f32⟩ : BufTy).Contents (Elt F) → (⟨S1x32, .f32⟩ : BufTy).Contents (Elt F)),
    unary main_v59 main_v60 (broadcastInDim S100000x32 ![0, 1] Facts₀.bcast_S1x32_S100000x32_0_1 : (⟨S1x32, .f32⟩ : BufTy).Contents (Elt F) → (⟨S100000x32, .f32⟩ : BufTy).Contents (Elt F)),
    binary main_v58 main_v60 main_v61 (addf : (⟨S100000x32, .f32⟩ : BufTy).Contents (Elt F) → (⟨S100000x32, .f32⟩ : BufTy).Contents (Elt F) → (⟨S100000x32, .f32⟩ : BufTy).Contents (Elt F)),
    TRef.nullary main_call1.cst (constant S_ .f32 0x00000000#32),
    TRef.unary main_call1.cst main_call1.v0 (broadcastInDim S100000x32 ![] Facts₀.bcast_S_S100000x32),
    TRef.binary (.of main_v61 : TRef sig ⟨S100000x32, .f32⟩) main_call1.v0 main_call1.v1 maximumf,
    binary main_v62 main_arg7 main_v63 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg8 main_v64 (broadcastInDim S1x16 ![1] Facts₀.bcast_S16_S1x16_1 : (⟨S16, .f32⟩ : BufTy).Contents (Elt F) → (⟨S1x16, .f32⟩ : BufTy).Contents (Elt F)),
    unary main_v64 main_v65 (broadcastInDim S100000x16 ![0, 1] Facts₀.bcast_S1x16_S100000x16_0_1 : (⟨S1x16, .f32⟩ : BufTy).Contents (Elt F) → (⟨S100000x16, .f32⟩ : BufTy).Contents (Elt F)),
    binary main_v63 main_v65 main_v66 (addf : (⟨S100000x16, .f32⟩ : BufTy).Contents (Elt F) → (⟨S100000x16, .f32⟩ : BufTy).Contents (Elt F) → (⟨S100000x16, .f32⟩ : BufTy).Contents (Elt F)),
    TRef.nullary main_call2.cst (constant S_ .f32 0x00000000#32),
    TRef.unary main_call2.cst main_call2.v0 (broadcastInDim S100000x16 ![] Facts₀.bcast_S_S100000x16),
    TRef.binary (.of main_v66 : TRef sig ⟨S100000x16, .f32⟩) main_call2.v0 main_call2.v1 (cmpf .ogt),
    TRef.nullary main_call2.cst_0 (constant S_ .f32 0x00000000#32),
    TRef.unary main_call2.cst_0 main_call2.v2 (broadcastInDim S100000x16 ![] Facts₀.bcast_S_S100000x16),
    TRef.binary (.of main_v66 : TRef sig ⟨S100000x16, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x16 ![] Facts₀.bcast_S_S100000x16),
    TRef.ternary main_call2.v3 main_call2.call0.v1 (.of main_v66 : TRef sig ⟨S100000x16, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x16 ![] Facts₀.bcast_S_S100000x16),
    TRef.binary main_call2.v6 main_call2.v5 main_call2.v7 mulf,
    TRef.ternary main_call2.v1 (.of main_v66 : TRef sig ⟨S100000x16, .f32⟩) main_call2.v7 main_call2.call1.v0 select,
    binary main_v67 main_arg9 main_v68 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    unary main_arg10 main_v69 (broadcastInDim S1x1 ![1] Facts₀.bcast_S1_S1x1_1 : (⟨S1, .f32⟩ : BufTy).Contents (Elt F) → (⟨S1x1, .f32⟩ : BufTy).Contents (Elt F)),
    unary main_v69 main_v70 (broadcastInDim S100000x1 ![0, 1] Facts₀.bcast_S1x1_S100000x1_0_1 : (⟨S1x1, .f32⟩ : BufTy).Contents (Elt F) → (⟨S100000x1, .f32⟩ : BufTy).Contents (Elt F)),
    binary main_v68 main_v70 main_v71 (addf : (⟨S100000x1, .f32⟩ : BufTy).Contents (Elt F) → (⟨S100000x1, .f32⟩ : BufTy).Contents (Elt F) → (⟨S100000x1, .f32⟩ : BufTy).Contents (Elt F)),
    reshape main_v71 main_v72 rfl Facts₀.shapeCasts_S100000x1_S100000 ]

set_option maxRecDepth 8192 in
set_option maxHeartbeats 4000000 in
/-- @main is that straight line: its two windows in order, each callee's body unfolded at its call and its record at
    its fields; both sides are one chain of steps once sequencing is re-associated. -/
theorem main_eq (c : Dev nD) : main (F := F) c = seq ops := by
  simp only [main, main_part0, main_part1, fn_relu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., reshape_bufs_sub ..⟩

/-! Every argument's buffer is written by no operation of the line, so the fold leaves it as it found it. -/

set_option maxRecDepth 8192 in
set_option maxHeartbeats 8000000 in
theorem arg0_eq (V : Valuation τ sig (Elt F)) :
    after ops V (main_arg0 : DevRef τ sig) = V (main_arg0 : DevRef τ sig) := by
  after_results_simp

set_option maxRecDepth 8192 in
set_option maxHeartbeats 8000000 in
theorem arg1_eq (V : Valuation τ sig (Elt F)) :
    after ops V (main_arg1 : DevRef τ sig) = V (main_arg1 : DevRef τ sig) := by
  after_results_simp

set_option maxRecDepth 8192 in
set_option maxHeartbeats 8000000 in
theorem arg2_eq (V : Valuation τ sig (Elt F)) :
    after ops V (main_arg2 : DevRef τ sig) = V (main_arg2 : DevRef τ sig) := by
  after_results_simp

set_option maxRecDepth 8192 in
set_option maxHeartbeats 8000000 in
theorem arg3_eq (V : Valuation τ sig (Elt F)) :
    after ops V (main_arg3 : DevRef τ sig) = V (main_arg3 : DevRef τ sig) := by
  after_results_simp

set_option maxRecDepth 8192 in
set_option maxHeartbeats 8000000 in
theorem arg4_eq (V : Valuation τ sig (Elt F)) :
    after ops V (main_arg4 : DevRef τ sig) = V (main_arg4 : DevRef τ sig) := by
  after_results_simp

set_option maxRecDepth 8192 in
set_option maxHeartbeats 8000000 in
theorem arg5_eq (V : Valuation τ sig (Elt F)) :
    after ops V (main_arg5 : DevRef τ sig) = V (main_arg5 : DevRef τ sig) := by
  after_results_simp

set_option maxRecDepth 8192 in
set_option maxHeartbeats 8000000 in
theorem arg6_eq (V : Valuation τ sig (Elt F)) :
    after ops V (main_arg6 : DevRef τ sig) = V (main_arg6 : DevRef τ sig) := by
  after_results_simp

set_option maxRecDepth 8192 in
set_option maxHeartbeats 8000000 in
theorem arg7_eq (V : Valuation τ sig (Elt F)) :
    after ops V (main_arg7 : DevRef τ sig) = V (main_arg7 : DevRef τ sig) := by
  after_results_simp

set_option maxRecDepth 8192 in
set_option maxHeartbeats 8000000 in
theorem arg8_eq (V : Valuation τ sig (Elt F)) :
    after ops V (main_arg8 : DevRef τ sig) = V (main_arg8 : DevRef τ sig) := by
  after_results_simp

set_option maxRecDepth 8192 in
set_option maxHeartbeats 8000000 in
theorem arg9_eq (V : Valuation τ sig (Elt F)) :
    after ops V (main_arg9 : DevRef τ sig) = V (main_arg9 : DevRef τ sig) := by
  after_results_simp

set_option maxRecDepth 8192 in
set_option maxHeartbeats 8000000 in
theorem arg10_eq (V : Valuation τ sig (Elt F)) :
    after ops V (main_arg10 : DevRef τ sig) = V (main_arg10 : DevRef τ sig) := by
  after_results_simp

set_option maxRecDepth 8192 in
set_option maxHeartbeats 16000000 in
/-- The fold at the result's buffer is the network's value of the arguments' contents.  Read back from the last
    operation to the first, each operation's result at the buffer it writes is its function of its operands' contents
    and every other buffer is passed over; the two pieces of each concatenated index vector (a row of the edge list
    flattened, and the node numbering) are read back the same way inside the concatenation's operand list; a callee's
    value is moved along the equality of its buffer's type with the value's type, which is the identity.  What is left
    is the composition of the printed operations on the arguments, and the specification's stages unfold to that same
    composition. -/
theorem out_eq (V : Valuation τ sig (Elt F)) :
    after ops V (main_v72 : DevRef τ sig)
      = Cert.RefSpec.out (F := F) (V (main_arg0 : DevRef τ sig)) (V (main_arg1 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  try simp only [TRef.ofBuf, TRef.toBuf, cast_eq]
  simp only [Cert.RefSpec.out, Cert.RefSpec.head2, Cert.RefSpec.elu, Cert.RefSpec.biasRelu, Cert.RefSpec.lin0, Cert.RefSpec.lin1,
    Cert.RefSpec.aggregate, Cert.RefSpec.normOf, Cert.RefSpec.degOf, Cert.RefSpec.wrapIdx, Cert.RefSpec.srcOf, Cert.RefSpec.dstOf]
  rfl

set_option maxRecDepth 8192 in
set_option maxHeartbeats 16000000 in
/-- On every device, for any float values, from any memory with zero counters: every weakly fair execution of the
    reference's @main terminates with its result at the network's value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = Cert.RefSpec.out (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v72).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.Value

end
-- ==== Proof.lean ====
/-
  The kernel computes a two-layer graph convolution with a dense head in three tiled dense stages (x · W1;
  max(agg1 + b1, 0) · W2; the head elu(max(agg2 + b2, 0) · Wo1 + bo1) · Wo2 + bo2) around two rounds of gather / scale /
  scatter-add message passing that it leaves to the host; the reference computes the same network with host operations
  only.  Over the extended reals the change of float format in front of each matrix product is the identity, a tile's
  matrix product into a zero accumulator is the row's sum of products, exp z - 1 is expm1 z, and the message passing is
  the same host code on both sides: so each dense stage's output array is the reference's stage of the arrays it found
  (`Stage0.arr`, `Stage1.arr`, `Stage2.arr`), the kernel's result read back through the program is the reference's
  value of the arguments (`Fold.result`), and the reference's own run ends there too (`Value.run`).
-/
import proofs.«117998_j74826920231167_1_alg».proof.Defs
import proofs.«117998_j74826920231167_1_alg».proof.Proof.Gen.Kernel
import proofs.«117998_j74826920231167_1_alg».proof.Proof.Gen.Kernel.Frame
import proofs.«117998_j74826920231167_1_alg».proof.Proof.Gen.KernelIdeal
import proofs.«117998_j74826920231167_1_alg».proof.Proof.Gen.KernelIdeal.Frame
import proofs.«117998_j74826920231167_1_alg».proof.Proof.Gen.ReferenceIdeal
import proofs.«117998_j74826920231167_1_alg».proof.Proof.Gen.Pre_finite_inputs
import proofs.«117998_j74826920231167_1_alg».proof.Proof.RefSpec
import proofs.«117998_j74826920231167_1_alg».proof.Proof.KRun
import proofs.«117998_j74826920231167_1_alg».proof.Proof.KFold
import proofs.«117998_j74826920231167_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the network's value of those arguments in
    their result buffers. -/
theorem algebraic : Cert.algebraic_KernelIdeal_ReferenceIdeal := by
  intro m ρ m' ρ' _ hagree
  refine ⟨fun c => Cert.RefSpec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result m ρ c), (h c).2⟩) (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, -, h3, h4, h5, h6, h7, h8, h9, h10⟩ := hagree c
    rw [h0, h1, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
